-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1x1024x1024 .f32 .bf16
  ∧ IdealRules.truncf_extf.Statement Cert.KernelIdeal.S1x256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x1024 .f32) (main_arg1 : FVec F S16x2048x1024 .f32) (main_arg2 : FVec F S16x2048x1024 .f32) (main_arg3 : IVec S16 32) (main_arg4 : IVec S16 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  main_v13
-- ==== Kernel.lean ====
abbrev S16x2048x1024 : Shape := ⟨3, ![16, 2048, 1024]⟩
abbrev S16 : Shape := ⟨1, ![16]⟩
abbrev S1x1024x1024 : Shape := ⟨3, ![1, 1024, 1024]⟩
abbrev S1x256x1024 : Shape := ⟨3, ![1, 256, 1024]⟩
abbrev S1x1024x1 : Shape := ⟨3, ![1, 1024, 1]⟩
abbrev S1x1024x256 : Shape := ⟨3, ![1, 1024, 256]⟩
abbrev S1 : Shape := ⟨1, ![1]⟩
abbrev S1x1024 : Shape := ⟨2, ![1, 1024]⟩

abbrev nBuf : Space → Nat
  | .hbm => 4
  | .vmem => 12
  | .smem => 2
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1024, .f32⟩
  | .local _ .vmem, ⟨11, _⟩ => ⟨S1x1024x256, .f32⟩
  | .local _ .smem, ⟨0, _⟩ => ⟨S16, .i32⟩
  | .local _ .smem, ⟨1, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond4 (i : grid0.Coords) : BitVec 1 :=
  let arg2 : BitVec 32 := BitVec.ofNat 32 (i 2).val
  let c7_i32 : BitVec 32 := 7#32
  let v47 : BitVec 1 := Scalar.cmpi .eq arg2 c7_i32
  let v48 : BitVec 32 := Scalar.extui v47
  let c0_i32_31 : BitVec 32 := 0#32
  let v49 : BitVec 1 := Scalar.cmpi .ne v48 c0_i32_31
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  numel1_S1 : S1.numel = 1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1x1024x256 : S1x1024x256.ShapeCasts S1x1024x256
  inb_S1x256x1024_S1x256x1024_0_0_0 : ∀ a, (![0, 0, 0] : Fin 3 → Nat) a + S1x256x1024.size a ≤ S1x256x1024.size a
  h_S1x256x1024 : 0 < S1x256x1024.numel
  bitsLt_bf16_f32 : FTy.bits .bf16 < FTy.bits .f32
  iota_S1x1024x256_d1_w32 : S1x1024x256.Iotas .tc 32 [1]
  iota_S1x1024x256_d2_w32 : S1x1024x256.Iotas .tc 32 [2]
  reduces_S1x1024x256_S1x1024 : S1x1024x256.Reduces [2] S1x1024
  shapeCasts_S1x1024_S1x1024x1 : S1x1024.ShapeCasts S1x1024x1
  broadcasts_S1x1024x1_S1x1024x256 : S1x1024x1.Broadcasts S1x1024x256
  broadcasts_S1x1024x1_S1x1024x1024 : S1x1024x1.Broadcasts S1x1024x1024
  dot_S1x1024x1024_S1x256x1024_S1x1024x256_2_2_1_1_0_0_wf : DotDims.WF S1x1024x1024 S1x256x1024 S1x1024x256 [2] [2] [1] [1] [0] [0]
  dot_S1x1024x256_S1x256x1024_S1x1024x1024_2_1_1_2_0_0_wf : DotDims.WF S1x1024x256 S1x256x1024 S1x1024x1024 [2] [1] [1] [2] [0] [0]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x2048x1024.size a
  hwx0_1 : ∀ i : grid0.Coords, EltTy.bits .f32 = 32 ∨ (Rect.block (s := S16x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x2048x1024.size a
  hwx0_2 : ∀ i : grid0.Coords, EltTy.bits .f32 = 32 ∨ (Rect.block (s := S16x2048x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x2048x1024.size a
  hwx0_3 : ∀ i : grid0.Coords, EltTy.bits .f32 = 32 ∨ (Rect.block (s := S16x2048x1024) S1x1024x1024.size (cc0_transform_3 i) (hinb0_3 i)).WholeWords (EltTy.packing .f32)

variable [Facts₀]

def dot_S1x1024x1024_S1x256x1024_S1x1024x256_2_2_1_1_0_0 : DotDims S1x1024x1024 S1x256x1024 S1x1024x256 where
  lhsContracting := [2]
  rhsContracting := [2]
  lhsNonContracting := [1]
  rhsNonContracting := [1]
  lhsBatch := [0]
  rhsBatch := [0]
  wf := dot_S1x1024x1024_S1x256x1024_S1x1024x256_2_2_1_1_0_0_wf
def dot_S1x1024x256_S1x256x1024_S1x1024x1024_2_1_1_2_0_0 : DotDims S1x1024x256 S1x256x1024 S1x1024x1024 where
  lhsContracting := [2]
  rhsContracting := [1]
  lhsNonContracting := [1]
  rhsNonContracting := [2]
  lhsBatch := [0]
  rhsBatch := [0]
  wf := dot_S1x1024x256_S1x256x1024_S1x1024x1024_2_1_1_2_0_0_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg1) S1x256x1024.size reads0_1 false false 2 stage0_1 sem0_1 nbuf0_1 hstage0_1

abbrev spec0_2 : Pipeline.WinSpec sig grid0.rank :=
  Pipeline.WinSpec.ofSpec (Memref.whole main_arg2) S1x256x1024.size reads0_2 false false 2 stage0_2 sem0_2 nbuf0_2 hstage0_2

abbrev spec0_3 : Pipeline.WinSpec sig grid0.rank :=
  Pipeline.WinSpec.ofSpec (Memref.whole main_v0) S1x1024x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x1024 : Shape := ⟨3, ![16, 2048, 1024]⟩
abbrev S16 : Shape := ⟨1, ![16]⟩
abbrev S16x2048x2048 : Shape := ⟨3, ![16, 2048, 2048]⟩
abbrev S2048 : Shape := ⟨1, ![2048]⟩
abbrev S16x1 : Shape := ⟨2, ![16, 1]⟩
abbrev S1x2048 : Shape := ⟨2, ![1, 2048]⟩
abbrev S16x2048 : Shape := ⟨2, ![16, 2048]⟩
abbrev S16x2048x1 : Shape := ⟨3, ![16, 2048, 1]⟩
abbrev S16x1x2048 : Shape := ⟨3, ![16, 1, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16, .i32⟩
  | .hbm, ⟨4, _⟩ => ⟨S16, .i32⟩
  | .hbm, ⟨5, _⟩ => ⟨S16x2048x2048, .f32⟩
  | .hbm, ⟨6, _⟩ => ⟨S2048, .i32⟩
  | .hbm, ⟨7, _⟩ => ⟨S16x1, .i32⟩
  | .hbm, ⟨8, _⟩ => ⟨S1x2048, .i32⟩
  | .hbm, ⟨9, _⟩ => ⟨S16x2048, .i32⟩
  | .hbm, ⟨10, _⟩ => ⟨S16x2048, .i32⟩
  | .hbm, ⟨11, _⟩ => ⟨S16x2048, .i1⟩
  | .hbm, ⟨12, _⟩ => ⟨S16x2048, .f32⟩
  | .hbm, ⟨13, _⟩ => ⟨S2048, .i32⟩
  | .hbm, ⟨14, _⟩ => ⟨S16x1, .i32⟩
  | .hbm, ⟨15, _⟩ => ⟨S1x2048, .i32⟩
  | .hbm, ⟨16, _⟩ => ⟨S16x2048, .i32⟩
  | .hbm, ⟨17, _⟩ => ⟨S16x2048, .i32⟩
  | .hbm, ⟨18, _⟩ => ⟨S16x2048, .i1⟩
  | .hbm, ⟨19, _⟩ => ⟨S16x2048, .f32⟩
  | .hbm, ⟨20, _⟩ => ⟨S16x2048x1, .f32⟩
  | .hbm, ⟨21, _⟩ => ⟨S16x1x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Guards.lean ====
/-
  The two guards of the kernel body. The body asks of one pair of 32-bit words `a` (the first key position of the
  block) and `b` (the key length) first whether `a ≥ b` and then whether `a < b`, both as signed numbers, each
  comparison widened to a word and tested against zero. Exactly one of the two holds: a signed order is total.
-/
import Idealize.ShloMosaic.PureOps
import Idealize.ShloMosaic.Lib.StableHlo.Predicate

namespace Cert.Guards

open Idealize.ShloMosaic

/-- The widened, zero-tested `a < b` holds exactly when `a` is below `b` as signed numbers. -/
theorem slt_guard (a b : BitVec 32) :
    Scalar.cmpi .ne (Scalar.extui (Scalar.cmpi .slt a b)) 0#32 = 1#1 ↔ a.slt b = true := by
  show BitVec.ofBool ((BitVec.ofBool (a.slt b)).setWidth 32 != 0#32) = 1#1 ↔ a.slt b = true
  cases a.slt b <;> decide

/-- The widened, zero-tested `a ≥ b` holds exactly when `a` is not below `b`. -/
theorem sge_guard (a b : BitVec 32) :
    Scalar.cmpi .ne (Scalar.extui (Scalar.cmpi .sge a b)) 0#32 = 1#1 ↔ ¬ a.slt b = true := by
  -- `b ≤ a` is the negation of `a < b`: both are comparisons of the same two signed values
  have hle : b.sle a = !a.slt b := by
    rw [BitVec.sle, BitVec.slt, ← decide_not, decide_eq_decide]
    omega
  show BitVec.ofBool ((BitVec.ofBool (b.sle a)).setWidth 32 != 0#32) = 1#1 ↔ ¬ a.slt b = true
  rw [hle]
  cases a.slt b <;> decide

/-- Signed order between small non-negative words is the order of the numbers: if `p ≤ p'` are positions below 2^31
    and `p` is not below the length, neither is `p'`. -/
theorem not_slt_mono (p p' : ℕ) (h : p ≤ p') (hp' : p' < 2 ^ 31) (b : BitVec 32)
    (hn : ¬ (BitVec.ofNat 32 p).slt b = true) : ¬ (BitVec.ofNat 32 p').slt b = true := by
  have hp : p < 2 ^ 31 := by omega
  -- both words read, as signed numbers, as the positions themselves
  rw [BitVec.slt, decide_eq_true_eq, StableHlo.Predicate.toInt_ofNat_small p hp] at hn
  rw [BitVec.slt, decide_eq_true_eq, StableHlo.Predicate.toInt_ofNat_small p' hp']
  omega

end Cert.Guards
-- ==== Proof.FramesKernel.lean ====
/-
  The side conditions of the generated frame of `Kernel`, from nothing: the prefetched tables are read by no index map,
  and the one assumed condition excludes a point at which NEITHER guard of the body holds, which no pair of words
  allows (Guards.lean). With them the generated frame gives the program's frame claim.
-/
import proofs.«412665_j43782896615765_3_alg».proof.Defs
import proofs.«412665_j43782896615765_3_alg».proof.Proof.Gen.Kernel.Frame
import proofs.«412665_j43782896615765_3_alg».proof.Proof.Guards

noncomputable section

namespace Cert.Kernel.Frames

open Idealize.ShloMosaic Idealize.SL.Sem Cert.Kernel Cert.Kernel.Gen

variable {F : FTy → Type} [FloatOps F]

/-- The skip guard holds exactly when the compute guard does not. -/
theorem cond_excl (i : grid0.Coords) (w : BitVec 32) : cond0_1 i w ↔ ¬ cond0_2 i w :=
  -- both guards test the same pair of words: the block's first key position and the length word
  (Cert.Guards.sge_guard _ w).trans (not_congr (Cert.Guards.slt_guard _ w)).symm

/-- The compute guard, as a signed comparison of the block's first key position with the length word. -/
theorem cond2_iff (i : grid0.Coords) (w : BitVec 32) :
    cond0_2 i w ↔ (BitVec.ofNat 32 (256 * (i 2).val)).slt w = true := by
  -- the product of the block number's word with the word 256 is the word of the product
  have hm : Scalar.muli (BitVec.ofNat 32 (i 2).val) 256#32 = BitVec.ofNat 32 (256 * (i 2).val) := by
    show BitVec.ofNat 32 (i 2).val * BitVec.ofNat 32 256 = BitVec.ofNat 32 (256 * (i 2).val)
    rw [← BitVec.ofNat_mul, Nat.mul_comm]
  rw [← hm]
  exact Cert.Guards.slt_guard _ w

variable (m : (ℓ : Loc nD τ sig) → Buf (Elt F) ℓ)

/-- No index map reads a table: the tables' side condition is empty. -/
theorem ok : Ok m := trivial

/-- The body's assumed condition: vacuous, since one of the two guards always holds. -/
theorem hyps : Hyps m (ok m) :=
  Hyps.of fun _ _ _ h1 h2 _ => absurd ((cond_excl _ _).mpr h2) h1

end Cert.Kernel.Frames

end
-- ==== Proof.FramesKernelIdeal.lean ====
/-
  The side conditions of the generated frame of `KernelIdeal`, from nothing: the prefetched tables are read by no index map,
  and the one assumed condition excludes a point at which NEITHER guard of the body holds, which no pair of words
  allows (Guards.lean). With them the generated frame gives the program's frame claim.
-/
import proofs.«412665_j43782896615765_3_alg».proof.Defs
import proofs.«412665_j43782896615765_3_alg».proof.Proof.Gen.KernelIdeal.Frame
import proofs.«412665_j43782896615765_3_alg».proof.Proof.Guards

noncomputable section

namespace Cert.KernelIdeal.Frames

open Idealize.ShloMosaic Idealize.SL.Sem Cert.KernelIdeal Cert.KernelIdeal.Gen

variable {F : FTy → Type} [FloatOps F]

/-- The skip guard holds exactly when the compute guard does not. -/
theorem cond_excl (i : grid0.Coords) (w : BitVec 32) : cond0_1 i w ↔ ¬ cond0_2 i w :=
  -- both guards test the same pair of words: the block's first key position and the length word
  (Cert.Guards.sge_guard _ w).trans (not_congr (Cert.Guards.slt_guard _ w)).symm

/-- The compute guard, as a signed comparison of the block's first key position with the length word. -/
theorem cond2_iff (i : grid0.Coords) (w : BitVec 32) :
    cond0_2 i w ↔ (BitVec.ofNat 32 (256 * (i 2).val)).slt w = true := by
  -- the product of the block number's word with the word 256 is the word of the product
  have hm : Scalar.muli (BitVec.ofNat 32 (i 2).val) 256#32 = BitVec.ofNat 32 (256 * (i 2).val) := by
    show BitVec.ofNat 32 (i 2).val * BitVec.ofNat 32 256 = BitVec.ofNat 32 (256 * (i 2).val)
    rw [← BitVec.ofNat_mul, Nat.mul_comm]
  rw [← hm]
  exact Cert.Guards.slt_guard _ w

variable (m : (ℓ : Loc nD τ sig) → Buf (Elt F) ℓ)

/-- No index map reads a table: the tables' side condition is empty. -/
theorem ok : Ok m := trivial

/-- The body's assumed condition: vacuous, since one of the two guards always holds. -/
theorem hyps : Hyps m (ok m) :=
  Hyps.of fun _ _ _ h1 h2 _ => absurd ((cond_excl _ _).mpr h2) h1

end Cert.KernelIdeal.Frames

end
-- ==== Proof.Spec.lean ====
/-
  The attention that both programs compute, written once as real-valued functions of the five argument
  arrays, so that the kernel's side and the reference's side can each be shown equal to the same thing.

  For batch `b`, query position `q` and key position `k` the LOGIT is the dot product of row `q` of Q with
  row `k` of K when both positions lie inside the batch's lengths (a signed 32-bit comparison of the
  position with the length word, as both programs make it), and the finite fill value -2^32 otherwise.
  The RESULT at `(b, q, d)` is the softmax over all 2048 keys of the logits, applied to column `d` of V.
  A softmax does not change when a constant `μ` is subtracted from every logit; the kernel subtracts a
  running maximum, the reference the row's maximum, and `attn μ` keeps `μ` explicit so that both are
  instances of one expression. Positions are natural numbers (reduced modulo the extents, so that every
  function is total); sums run over `Finset.range`, which splits block by block.
-/
import Idealize.ShloMosaic.PureOps.Ideal
import Idealize.ShloMosaic.Lib.ValueIdx
import Mathlib.Analysis.SpecialFunctions.Exp

noncomputable section

namespace Cert.Attn

open Idealize.ShloMosaic Idealize.ShloMosaic.ValueIdx Finset

/-- The shape of Q, K, V and of the result. -/
abbrev SArr : Shape := ⟨3, ![16, 2048, 1024]⟩
/-- The shape of the two length vectors. -/
abbrev SLen : Shape := ⟨1, ![16]⟩

/-- The index `(b, q, d)` of a [16, 2048, 1024] array, from natural numbers. -/
def at3 (b q d : ℕ) : SArr.Idx :=
  ix3 (n0 := 16) (n1 := 2048) (n2 := 1024) ⟨b % 16, Nat.mod_lt _ (by norm_num)⟩ ⟨q % 2048, Nat.mod_lt _ (by norm_num)⟩
    ⟨d % 1024, Nat.mod_lt _ (by norm_num)⟩

/-- The index `b` of a length vector, from a natural number. -/
def at1 (b : ℕ) : SLen.Idx := ix1 (n := 16) ⟨b % 16, Nat.mod_lt _ (by norm_num)⟩

theorem at3_fin (b : Fin 16) (q : Fin 2048) (d : Fin 1024) : at3 b.val q.val d.val = ix3 b q d := by
  unfold at3
  rw [show (⟨b.val % 16, Nat.mod_lt _ (by norm_num)⟩ : Fin 16) = b from Fin.ext (Nat.mod_eq_of_lt b.isLt),
    show (⟨q.val % 2048, Nat.mod_lt _ (by norm_num)⟩ : Fin 2048) = q from Fin.ext (Nat.mod_eq_of_lt q.isLt),
    show (⟨d.val % 1024, Nat.mod_lt _ (by norm_num)⟩ : Fin 1024) = d from Fin.ext (Nat.mod_eq_of_lt d.isLt)]

theorem at1_fin (b : Fin 16) : at1 b.val = ix1 b := by
  unfold at1
  rw [show (⟨b.val % 16, Nat.mod_lt _ (by norm_num)⟩ : Fin 16) = b from Fin.ext (Nat.mod_eq_of_lt b.isLt)]

theorem at3_idx (i : SArr.Idx) : at3 (i 0).val (i 1).val (i 2).val = i :=
  (at3_fin (i 0) (i 1) (i 2)).trans (eq_ix3 i).symm

/-- Every entry of the array is a real number (no infinity). -/
def IsReal (X : SArr.Idx → EReal) : Prop := ∀ i, ((X i).toReal : EReal) = X i

/-- The entry at `(b, q, d)` as a real number. -/
def re (X : SArr.Idx → EReal) (b q d : ℕ) : ℝ := (X (at3 b q d)).toReal

theorem re_coe {X : SArr.Idx → EReal} (h : IsReal X) (b q d : ℕ) : X (at3 b q d) = ((re X b q d : ℝ) : EReal) :=
  (h _).symm

/-- Position `p` lies inside batch `b`'s length: the signed comparison of the position's word with the length word. -/
def inside (len : SLen.Idx → BitVec 32) (b p : ℕ) : Prop := (BitVec.ofNat 32 p).slt (len (at1 b)) = true

instance (len : SLen.Idx → BitVec 32) (b p : ℕ) : Decidable (inside len b p) :=
  inferInstanceAs (Decidable (_ = true))

/-- The fill value of a masked logit, -2^32 (the f32 nearest to the source's -2^32 + 1). -/
def fill : ℝ := -4294967296

variable (Q K V : SArr.Idx → EReal) (ql kl : SLen.Idx → BitVec 32)

/-- The dot product of query row `q` and key row `k` of batch `b`. -/
def score (b q k : ℕ) : ℝ := ∑ d ∈ range 1024, re Q b q d * re K b k d

/-- The masked logit. -/
def logit (b q k : ℕ) : ℝ := if inside ql b q ∧ inside kl b k then score Q K b q k else fill

/-- The softmax of the logits minus `μ` over the 2048 keys, applied to column `d` of V. -/
def attn (μ : ℝ) (b q d : ℕ) : ℝ :=
  (∑ k ∈ range 2048, Real.exp (logit Q K ql kl b q k - μ) * re V b k d)
    / (∑ k ∈ range 2048, Real.exp (logit Q K ql kl b q k - μ))

/-- The result array both programs end with. -/
def result : SArr.Idx → EReal := fun i => ((attn Q K V ql kl 0 (i 0).val (i 1).val (i 2).val : ℝ) : EReal)

end Cert.Attn

end
-- ==== Proof.Finite.lean ====
/-
  From the precondition to real entries. The precondition says that the conjunction over all three float arrays
  of "every entry's absolute value is below +∞" is true. Over the extended reals an entry whose absolute value
  `max x (-x)` is strictly below `⊤` is neither `⊤` nor `⊥`, hence a real number: that is all the value proof
  needs of Q, K and V (differences `x - x`, products and sums of entries are then ordinary real arithmetic).
-/
import proofs.«412665_j43782896615765_3_alg».proof.Pre_finite_inputs
import proofs.«412665_j43782896615765_3_alg».proof.Proof.Spec
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx

/-- An extended real whose absolute value is strictly below `+∞` is a real number. -/
theorem coe_toReal_of_abs_lt_top (x : EReal) (h : max x (-x) < ⊤) : ((x.toReal : ℝ) : EReal) = x := by
  rw [max_lt_iff] at h
  -- `x < ⊤` rules out `⊤`; `-x < ⊤` rules out `⊥`, whose negation is `⊤`
  refine EReal.coe_toReal (ne_of_lt h.1) fun hb => ?_
  rw [hb, EReal.neg_bot] at h
  exact lt_irrefl _ h.2

/-- One array's part of the precondition: if the conjunction over all entries of "`|x| < +∞`" is true, every
    entry is a real number. -/
private theorem isReal_of_all [Cert.Pre_finite_inputs.Facts]
    (X : FVec Ideal Cert.Pre_finite_inputs.S16x2048x1024 .f32)
    (e : Host.reduce IntOp.andi
        (cmpf .olt (Host.absf X)
          (broadcastInDim Cert.Pre_finite_inputs.S16x2048x1024 ![] Cert.Pre_finite_inputs.Facts.bcast_S_S16x2048x1024
            (constant Cert.Pre_finite_inputs.S_ .f32 0x7F800000#32)))
        (constantI Cert.Pre_finite_inputs.S_ 1 1#1)
        Cert.Pre_finite_inputs.Facts.reducesTo_S16x2048x1024_S_d0_1_2 Cert.Pre_finite_inputs.Facts.h_S_ ix0 = 1#1) :
    Cert.Attn.IsReal X := by
  intro i
  -- the result shape of the reduction has exactly one index
  haveI : Subsingleton Cert.Pre_finite_inputs.S_.Idx := ⟨fun a b => funext fun d => d.elim0⟩
  -- the conjunction being true, the comparison at `i` is true
  have hi := Host.reduce_andi_all _ _ _ _ _ e i
  -- the compared constant is `+∞`
  have htop : Ideal.ofBits .f32 0x7F800000#32 = ⊤ := by simp [Ideal.ofBits, Ideal.ieee]
  change Ideal.cmp .olt (max (X i) (-(X i))) (Ideal.ofBits .f32 0x7F800000#32) = 1#1 at hi
  rw [htop] at hi
  apply coe_toReal_of_abs_lt_top
  by_contra hn
  simp [Ideal.cmp, hn] at hi

/-- Under the precondition every entry of Q, of K and of V is a real number. -/
theorem isReal_of_pre [Cert.Pre_finite_inputs.Facts]
    (Q K V : FVec Ideal Cert.Pre_finite_inputs.S16x2048x1024 .f32) (ql kl : IVec Cert.Pre_finite_inputs.S16 32)
    (h : Cert.Pre_finite_inputs.fn (F := Ideal) Q K V ql kl = fun _ => 1#1) :
    Cert.Attn.IsReal Q ∧ Cert.Attn.IsReal K ∧ Cert.Attn.IsReal V := by
  have h0 := congrFun h ix0
  dsimp only [Cert.Pre_finite_inputs.fn, andi] at h0
  -- the outer conjunction joins (Q's and K's) with V's; the inner one joins Q's with K's
  obtain ⟨hQK, hV⟩ := IntOp.andi_eq_one.1 h0
  obtain ⟨hQ, hK⟩ := IntOp.andi_eq_one.1 hQK
  exact ⟨isReal_of_all Q hQ, isReal_of_all K hK, isReal_of_all V hV⟩

end Cert.Finite

end
-- ==== Proof.Pieces.lean ====
/-
  What one run of the kernel body leaves in its four carried buffers and in the output block, case by case, as the
  body's own arithmetic of what the buffers held before.

  Write `S` for the block of logits the body works on: the computed block (k0_pay9 of the loaded query and key
  blocks and the two length words) when the block of keys starts inside the key length, the constant fill block
  (k0_pay8) when it starts at or past it. Then the body leaves
    the running maximum     k0_pay3 (k0_pay10 S m),
    the running denominator k0_pay1 (k0_pay13 S m m l),
    the running numerator   k0_pay2 (k0_pay11 S m m) (k0_pay12 S m) v acc,
    the block of logits     S
  where `m`, `l`, `acc` are what the three running buffers held before the block — at the first block of a row
  of blocks the body has just reset them to k0_pay5, k0_pay6, k0_pay7 — and `v` is the loaded block of value rows;
  at the last block it also leaves the output block k0_pay4 of the new numerator and the new denominator.
  Each lemma reads the stores the run made back as one value: every store covers its whole buffer, so the buffer
  holds the last store's payload, and a load after a store reads that payload.
-/
import proofs.«412665_j43782896615765_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

variable (c : Dev nD) (i : grid0.Coords)
  (arg5 : Memref sig .tc .vmem S1x1024x1024 .f32) (harg5 : arg5.IsWhole) (arg6 : Memref sig .tc .vmem S1x256x1024 .f32) (harg6 : arg6.IsWhole)
  (arg7 : Memref sig .tc .vmem S1x256x1024 .f32) (harg7 : arg7.IsWhole) (arg8 : Memref sig .tc .vmem S1x1024x1024 .f32) (harg8 : arg8.IsWhole)
  (arg9 : Memref sig .tc .vmem S1x1024x1 .f32) (harg9 : arg9.IsWhole) (arg10 : Memref sig .tc .vmem S1x1024x1 .f32) (harg10 : arg10.IsWhole)
  (arg11 : Memref sig .tc .vmem S1x1024x1024 .f32) (harg11 : arg11.IsWhole) (arg12 : Memref sig .tc .vmem S1x1024x256 .f32) (harg12 : arg12.IsWhole)
  (x0 : Vec F S1x1024x1024 .f32) (x1 x2 : Vec F S1x256x1024 .f32) (xt0 : TbBuf0 (F := F) c tbM0_0) (xt1 : TbBuf0 (F := F) c tbM0_1)

/-- The query-length word the body loads at grid point `i` from the first table held at `xt0`. -/
abbrev qw : Elt F .i32 :=
  tbM0_0.view.readAt (Elt F) (Rect.unit (s := S16) (k0_off1 i) S1.size (k0_off1_inb i)).toLoadRect xt0 (Shape.Idx.first (numel1_S1.symm ▸ Nat.one_pos))
/-- The key-length word the body loads at grid point `i` from the second table held at `xt1`. -/
abbrev kw : Elt F .i32 :=
  tbM0_1.view.readAt (Elt F) (Rect.unit (s := S16) (k0_off1 i) S1.size (k0_off1_inb i)).toLoadRect xt1 (Shape.Idx.first (numel1_S1.symm ▸ Nat.one_pos))

/-- The computed block of logits at point `i`. -/
abbrev sC : Vec F S1x1024x256 .f32 := k0_pay9 i (qw c i xt0) (kw c i xt1) x0 x1

/-! ## A middle block of a row, computed (case G) -/
section G
variable (hc0 : ¬cond0_0 i) (hc3 : ¬cond0_3 i) (xs0 xs1 : Vec F S1x1024x1 .f32) (xs2 : Vec F S1x1024x1024 .f32)
  (hc1 : ¬cond0_1 i (kw c i xt1)) (hc2 : cond0_2 i (kw c i xt1))

theorem G_m : sout0_G_0 c i arg5 harg5 arg6 harg6 arg7 harg7 arg8 harg8 arg9 harg9 arg10 harg10 arg11 harg11 arg12 harg12 hc0 hc3 x0 x1 x2 xt0 xt1 xs0 xs1 xs2 hc1 hc2
    = k0_pay3 (k0_pay10 (sC c i x0 x1 xt0 xt1) xs0) := by
  unfold sout0_G_0
  rw [View.read_writes_eq_canon _ _ _ (scover0_G_0 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_G
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem G_l : sout0_G_1 c i arg5 harg5 arg6 harg6 arg7 harg7 arg8 harg8 arg9 harg9 arg10 harg10 arg11 harg11 arg12 harg12 hc0 hc3 x0 x1 x2 xt0 xt1 xs0 xs1 xs2 hc1 hc2
    = k0_pay1 (k0_pay13 (sC c i x0 x1 xt0 xt1) xs0 xs0 xs1) := by
  unfold sout0_G_1
  rw [View.read_writes_eq_canon _ _ _ (scover0_G_1 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_G
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem G_acc : sout0_G_2 c i arg5 harg5 arg6 harg6 arg7 harg7 arg8 harg8 arg9 harg9 arg10 harg10 arg11 harg11 arg12 harg12 hc0 hc3 x0 x1 x2 xt0 xt1 xs0 xs1 xs2 hc1 hc2
    = k0_pay2 (k0_pay11 (sC c i x0 x1 xt0 xt1) xs0 xs0) (k0_pay12 (sC c i x0 x1 xt0 xt1) xs0) x2 xs2 := by
  unfold sout0_G_2
  rw [View.read_writes_eq_canon _ _ _ (scover0_G_2 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_G
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem G_s : sout0_G_3 c i arg5 harg5 arg6 harg6 arg7 harg7 arg8 harg8 arg9 harg9 arg10 harg10 arg11 harg11 arg12 harg12 hc0 hc3 x0 x1 x2 xt0 xt1 xs0 xs1 xs2 hc1 hc2
    = sC c i x0 x1 xt0 xt1 := by
  unfold sout0_G_3
  rw [View.read_writes_eq_canon _ _ _ (scover0_G_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_G
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

end G

/-! ## A middle block of a row, wholly past the key length (case F) -/
section F
variable (hc0 : ¬cond0_0 i) (hc3 : ¬cond0_3 i) (xs0 xs1 : Vec F S1x1024x1 .f32) (xs2 : Vec F S1x1024x1024 .f32)
  (hc1 : cond0_1 i (kw c i xt1)) (hc2 : ¬cond0_2 i (kw c i xt1))

theorem F_m : sout0_F_0 c i arg5 harg5 arg6 harg6 arg7 harg7 arg8 harg8 arg9 harg9 arg10 harg10 arg11 harg11 arg12 harg12 hc0 hc3 x0 x1 x2 xt0 xt1 xs0 xs1 xs2 hc1 hc2
    = k0_pay3 (k0_pay10 (k0_pay8 (F := F)) xs0) := by
  unfold sout0_F_0
  rw [View.read_writes_eq_canon _ _ _ (scover0_F_0 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_F
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem F_l : sout0_F_1 c i arg5 harg5 arg6 harg6 arg7 harg7 arg8 harg8 arg9 harg9 arg10 harg10 arg11 harg11 arg12 harg12 hc0 hc3 x0 x1 x2 xt0 xt1 xs0 xs1 xs2 hc1 hc2
    = k0_pay1 (k0_pay13 (k0_pay8 (F := F)) xs0 xs0 xs1) := by
  unfold sout0_F_1
  rw [View.read_writes_eq_canon _ _ _ (scover0_F_1 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_F
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem F_acc : sout0_F_2 c i arg5 harg5 arg6 harg6 arg7 harg7 arg8 harg8 arg9 harg9 arg10 harg10 arg11 harg11 arg12 harg12 hc0 hc3 x0 x1 x2 xt0 xt1 xs0 xs1 xs2 hc1 hc2
    = k0_pay2 (k0_pay11 (k0_pay8 (F := F)) xs0 xs0) (k0_pay12 (k0_pay8 (F := F)) xs0) x2 xs2 := by
  unfold sout0_F_2
  rw [View.read_writes_eq_canon _ _ _ (scover0_F_2 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_F
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem F_s : sout0_F_3 c i arg5 harg5 arg6 harg6 arg7 harg7 arg8 harg8 arg9 harg9 arg10 harg10 arg11 harg11 arg12 harg12 hc0 hc3 x0 x1 x2 xt0 xt1 xs0 xs1 xs2 hc1 hc2
    = k0_pay8 (F := F) := by
  unfold sout0_F_3
  rw [View.read_writes_eq_canon _ _ _ (scover0_F_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_F
  dsimp only
  sl_unfold_run_names
  rw [View.canon_unit_zero hz3]

end F

/-! ## The first block of a row, computed (case C): the three running buffers are reset first -/
section C
variable (hc0 : cond0_0 i) (hc3 : ¬cond0_3 i)
  (hc1 : ¬cond0_1 i (kw c i xt1)) (hc2 : cond0_2 i (kw c i xt1))

theorem C_m : sout0_C_0 c i arg5 harg5 arg6 harg6 arg7 harg7 arg8 harg8 arg9 harg9 arg10 harg10 arg11 harg11 arg12 harg12 hc0 hc3 x0 x1 x2 xt0 xt1 hc1 hc2
    = k0_pay3 (k0_pay10 (sC c i x0 x1 xt0 xt1) (k0_pay5 (F := F))) := by
  unfold sout0_C_0
  rw [View.read_writes_eq_canon _ _ _ (scover0_C_0 c i arg5 harg5 arg6 harg6 arg7 harg7 arg8 harg8 arg9 harg9 arg10 harg10 arg11 harg11 arg12 harg12 hc0 hc3 x0 x1 x2 xt0 xt1 hc1 hc2)]
  unfold kernelRun0_C
  dsimp only
  sl_unfold_run_names
  rw [View.canon_cons_unit_zero (S := S1x1024x1) hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem C_l : sout0_C_1 c i arg5 harg5 arg6 harg6 arg7 harg7 arg8 harg8 arg9 harg9 arg10 harg10 arg11 harg11 arg12 harg12 hc0 hc3 x0 x1 x2 xt0 xt1 hc1 hc2
    = k0_pay1 (k0_pay13 (sC c i x0 x1 xt0 xt1) (k0_pay5 (F := F)) (k0_pay5 (F := F)) (k0_pay6 (F := F))) := by
  unfold sout0_C_1
  rw [View.read_writes_eq_canon _ _ _ (scover0_C_1 c i arg5 harg5 arg6 harg6 arg7 harg7 arg8 harg8 arg9 harg9 arg10 harg10 arg11 harg11 arg12 harg12 hc0 hc3 x0 x1 x2 xt0 xt1 hc1 hc2)]
  unfold kernelRun0_C
  dsimp only
  sl_unfold_run_names
  rw [View.canon_cons_unit_zero (S := S1x1024x1) hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem C_acc : sout0_C_2 c i arg5 harg5 arg6 harg6 arg7 harg7 arg8 harg8 arg9 harg9 arg10 harg10 arg11 harg11 arg12 harg12 hc0 hc3 x0 x1 x2 xt0 xt1 hc1 hc2
    = k0_pay2 (k0_pay11 (sC c i x0 x1 xt0 xt1) (k0_pay5 (F := F)) (k0_pay5 (F := F))) (k0_pay12 (sC c i x0 x1 xt0 xt1) (k0_pay5 (F := F))) x2 (k0_pay7 (F := F)) := by
  unfold sout0_C_2
  rw [View.read_writes_eq_canon _ _ _ (scover0_C_2 c i arg5 harg5 arg6 harg6 arg7 harg7 arg8 harg8 arg9 harg9 arg10 harg10 arg11 harg11 arg12 harg12 hc0 hc3 x0 x1 x2 xt0 xt1 hc1 hc2)]
  unfold kernelRun0_C
  dsimp only
  sl_unfold_run_names
  rw [View.canon_cons_unit_zero (S := S1x1024x1024) hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem C_s : sout0_C_3 c i arg5 harg5 arg6 harg6 arg7 harg7 arg8 harg8 arg9 harg9 arg10 harg10 arg11 harg11 arg12 harg12 hc0 hc3 x0 x1 x2 xt0 xt1 hc1 hc2
    = sC c i x0 x1 xt0 xt1 := by
  unfold sout0_C_3
  rw [View.read_writes_eq_canon _ _ _ (scover0_C_3 c i arg5 harg5 arg6 harg6 arg7 harg7 arg8 harg8 arg9 harg9 arg10 harg10 arg11 harg11 arg12 harg12 hc0 hc3 x0 x1 x2 xt0 xt1 hc1 hc2)]
  unfold kernelRun0_C
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

end C

/-! ## The first block of a row, wholly past the key length (case B) -/
section B
variable (hc0 : cond0_0 i) (hc3 : ¬cond0_3 i)
  (hc1 : cond0_1 i (kw c i xt1)) (hc2 : ¬cond0_2 i (kw c i xt1))

theorem B_m : sout0_B_0 c i arg5 harg5 arg6 harg6 arg7 harg7 arg8 harg8 arg9 harg9 arg10 harg10 arg11 harg11 arg12 harg12 hc0 hc3 x0 x1 x2 xt0 xt1 hc1 hc2
    = k0_pay3 (k0_pay10 (k0_pay8 (F := F)) (k0_pay5 (F := F))) := by
  unfold sout0_B_0
  rw [View.read_writes_eq_canon _ _ _ (scover0_B_0 c i arg5 harg5 arg6 harg6 arg7 harg7 arg8 harg8 arg9 harg9 arg10 harg10 arg11 harg11 arg12 harg12 hc0 hc3 x0 x1 x2 xt0 xt1 hc1 hc2)]
  unfold kernelRun0_B
  dsimp only
  sl_unfold_run_names
  rw [View.canon_cons_unit_zero (S := S1x1024x1) hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem B_l : sout0_B_1 c i arg5 harg5 arg6 harg6 arg7 harg7 arg8 harg8 arg9 harg9 arg10 harg10 arg11 harg11 arg12 harg12 hc0 hc3 x0 x1 x2 xt0 xt1 hc1 hc2
    = k0_pay1 (k0_pay13 (k0_pay8 (F := F)) (k0_pay5 (F := F)) (k0_pay5 (F := F)) (k0_pay6 (F := F))) := by
  unfold sout0_B_1
  rw [View.read_writes_eq_canon _ _ _ (scover0_B_1 c i arg5 harg5 arg6 harg6 arg7 harg7 arg8 harg8 arg9 harg9 arg10 harg10 arg11 harg11 arg12 harg12 hc0 hc3 x0 x1 x2 xt0 xt1 hc1 hc2)]
  unfold kernelRun0_B
  dsimp only
  sl_unfold_run_names
  rw [View.canon_cons_unit_zero (S := S1x1024x1) hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem B_acc : sout0_B_2 c i arg5 harg5 arg6 harg6 arg7 harg7 arg8 harg8 arg9 harg9 arg10 harg10 arg11 harg11 arg12 harg12 hc0 hc3 x0 x1 x2 xt0 xt1 hc1 hc2
    = k0_pay2 (k0_pay11 (k0_pay8 (F := F)) (k0_pay5 (F := F)) (k0_pay5 (F := F))) (k0_pay12 (k0_pay8 (F := F)) (k0_pay5 (F := F))) x2 (k0_pay7 (F := F)) := by
  unfold sout0_B_2
  rw [View.read_writes_eq_canon _ _ _ (scover0_B_2 c i arg5 harg5 arg6 harg6 arg7 harg7 arg8 harg8 arg9 harg9 arg10 harg10 arg11 harg11 arg12 harg12 hc0 hc3 x0 x1 x2 xt0 xt1 hc1 hc2)]
  unfold kernelRun0_B
  dsimp only
  sl_unfold_run_names
  rw [View.canon_cons_unit_zero (S := S1x1024x1024) hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem B_s : sout0_B_3 c i arg5 harg5 arg6 harg6 arg7 harg7 arg8 harg8 arg9 harg9 arg10 harg10 arg11 harg11 arg12 harg12 hc0 hc3 x0 x1 x2 xt0 xt1 hc1 hc2
    = k0_pay8 (F := F) := by
  unfold sout0_B_3
  rw [View.read_writes_eq_canon _ _ _ (scover0_B_3 c i arg5 harg5 arg6 harg6 arg7 harg7 arg8 harg8 arg9 harg9 arg10 harg10 arg11 harg11 arg12 harg12 hc0 hc3 x0 x1 x2 xt0 xt1 hc1 hc2)]
  unfold kernelRun0_B
  dsimp only
  sl_unfold_run_names
  rw [View.canon_unit_zero hz3]

end B

/-! ## The last block of a row, computed (case K): the output block is stored too -/
section K
variable (hc0 : ¬cond0_0 i) (hc3 : cond0_3 i) (xs0 xs1 : Vec F S1x1024x1 .f32) (xs2 : Vec F S1x1024x1024 .f32)
  (hc1 : ¬cond0_1 i (kw c i xt1)) (hc2 : cond0_2 i (kw c i xt1))

theorem K_m : sout0_K_0 c i arg5 harg5 arg6 harg6 arg7 harg7 arg8 harg8 arg9 harg9 arg10 harg10 arg11 harg11 arg12 harg12 hc0 hc3 x0 x1 x2 xt0 xt1 xs0 xs1 xs2 hc1 hc2
    = k0_pay3 (k0_pay10 (sC c i x0 x1 xt0 xt1) xs0) := by
  unfold sout0_K_0
  rw [View.read_writes_eq_canon _ _ _ (scover0_K_0 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_K
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem K_l : sout0_K_1 c i arg5 harg5 arg6 harg6 arg7 harg7 arg8 harg8 arg9 harg9 arg10 harg10 arg11 harg11 arg12 harg12 hc0 hc3 x0 x1 x2 xt0 xt1 xs0 xs1 xs2 hc1 hc2
    = k0_pay1 (k0_pay13 (sC c i x0 x1 xt0 xt1) xs0 xs0 xs1) := by
  unfold sout0_K_1
  rw [View.read_writes_eq_canon _ _ _ (scover0_K_1 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_K
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem K_acc : sout0_K_2 c i arg5 harg5 arg6 harg6 arg7 harg7 arg8 harg8 arg9 harg9 arg10 harg10 arg11 harg11 arg12 harg12 hc0 hc3 x0 x1 x2 xt0 xt1 xs0 xs1 xs2 hc1 hc2
    = k0_pay2 (k0_pay11 (sC c i x0 x1 xt0 xt1) xs0 xs0) (k0_pay12 (sC c i x0 x1 xt0 xt1) xs0) x2 xs2 := by
  unfold sout0_K_2
  rw [View.read_writes_eq_canon _ _ _ (scover0_K_2 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_K
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem K_s : sout0_K_3 c i arg5 harg5 arg6 harg6 arg7 harg7 arg8 harg8 arg9 harg9 arg10 harg10 arg11 harg11 arg12 harg12 hc0 hc3 x0 x1 x2 xt0 xt1 xs0 xs1 xs2 hc1 hc2
    = sC c i x0 x1 xt0 xt1 := by
  unfold sout0_K_3
  rw [View.read_writes_eq_canon _ _ _ (scover0_K_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_K
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem K_out : out0_K_3 c i arg5 harg5 arg6 harg6 arg7 harg7 arg8 harg8 arg9 harg9 arg10 harg10 arg11 harg11 arg12 harg12 hc0 hc3 x0 x1 x2 xt0 xt1 xs0 xs1 xs2 hc1 hc2
    = k0_pay4 (k0_pay2 (k0_pay11 (sC c i x0 x1 xt0 xt1) xs0 xs0) (k0_pay12 (sC c i x0 x1 xt0 xt1) xs0) x2 xs2) (k0_pay1 (k0_pay13 (sC c i x0 x1 xt0 xt1) xs0 xs0 xs1)) := by
  unfold out0_K_3
  rw [View.read_writes_eq_canon _ _ _ (cover0_K_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_K
  dsimp only
  sl_unfold_run_names
  rw [View.canon_unit_zero hz3]
  unfold sC qw kw
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

end K

/-! ## The last block of a row, wholly past the key length (case J) -/
section J
variable (hc0 : ¬cond0_0 i) (hc3 : cond0_3 i) (xs0 xs1 : Vec F S1x1024x1 .f32) (xs2 : Vec F S1x1024x1024 .f32)
  (hc1 : cond0_1 i (kw c i xt1)) (hc2 : ¬cond0_2 i (kw c i xt1))

theorem J_m : sout0_J_0 c i arg5 harg5 arg6 harg6 arg7 harg7 arg8 harg8 arg9 harg9 arg10 harg10 arg11 harg11 arg12 harg12 hc0 hc3 x0 x1 x2 xt0 xt1 xs0 xs1 xs2 hc1 hc2
    = k0_pay3 (k0_pay10 (k0_pay8 (F := F)) xs0) := by
  unfold sout0_J_0
  rw [View.read_writes_eq_canon _ _ _ (scover0_J_0 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_J
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem J_l : sout0_J_1 c i arg5 harg5 arg6 harg6 arg7 harg7 arg8 harg8 arg9 harg9 arg10 harg10 arg11 harg11 arg12 harg12 hc0 hc3 x0 x1 x2 xt0 xt1 xs0 xs1 xs2 hc1 hc2
    = k0_pay1 (k0_pay13 (k0_pay8 (F := F)) xs0 xs0 xs1) := by
  unfold sout0_J_1
  rw [View.read_writes_eq_canon _ _ _ (scover0_J_1 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_J
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem J_acc : sout0_J_2 c i arg5 harg5 arg6 harg6 arg7 harg7 arg8 harg8 arg9 harg9 arg10 harg10 arg11 harg11 arg12 harg12 hc0 hc3 x0 x1 x2 xt0 xt1 xs0 xs1 xs2 hc1 hc2
    = k0_pay2 (k0_pay11 (k0_pay8 (F := F)) xs0 xs0) (k0_pay12 (k0_pay8 (F := F)) xs0) x2 xs2 := by
  unfold sout0_J_2
  rw [View.read_writes_eq_canon _ _ _ (scover0_J_2 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_J
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

theorem J_s : sout0_J_3 c i arg5 harg5 arg6 harg6 arg7 harg7 arg8 harg8 arg9 harg9 arg10 harg10 arg11 harg11 arg12 harg12 hc0 hc3 x0 x1 x2 xt0 xt1 xs0 xs1 xs2 hc1 hc2
    = k0_pay8 (F := F) := by
  unfold sout0_J_3
  rw [View.read_writes_eq_canon _ _ _ (scover0_J_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_J
  dsimp only
  sl_unfold_run_names
  rw [View.canon_unit_zero hz3]

theorem J_out : out0_J_3 c i arg5 harg5 arg6 harg6 arg7 harg7 arg8 harg8 arg9 harg9 arg10 harg10 arg11 harg11 arg12 harg12 hc0 hc3 x0 x1 x2 xt0 xt1 xs0 xs1 xs2 hc1 hc2
    = k0_pay4 (k0_pay2 (k0_pay11 (k0_pay8 (F := F)) xs0 xs0) (k0_pay12 (k0_pay8 (F := F)) xs0) x2 xs2) (k0_pay1 (k0_pay13 (k0_pay8 (F := F)) xs0 xs0 xs1)) := by
  unfold out0_J_3
  rw [View.read_writes_eq_canon _ _ _ (cover0_J_3 c i arg5 harg5 arg6 harg6 arg7 harg7 arg8 harg8 arg9 harg9 arg10 harg10 arg11 harg11 arg12 harg12 hc0 hc3 x0 x1 x2 xt0 xt1 xs0 xs1 xs2 hc1 hc2)]
  unfold kernelRun0_J
  dsimp only
  sl_unfold_run_names
  rw [View.canon_unit_zero hz3]
  simp only [View.readAt_eq_ld, harg5.read_unread, harg6.read_unread, harg7.read_unread, harg8.read_unread, harg9.read_unread, harg10.read_unread, harg11.read_unread,
    View.ld_unit_zero (S := S1x1024x1) hz3, View.ld_unit_zero (S := S1x1024x256) hz3, View.ld_unit_zero (S := S1x1024x1024) hz3,
    View.ld_unit_zero (S := S1x256x1024) hz3, View.readCov_unit_zero (S := S1x1024x256) _ hz3, View.readCov_unit_zero (S := S1x1024x1) _ hz3,
    View.readCov_unit_zero (S := S1x1024x1024) _ hz3]

end J

end Cert.KernelIdeal.Pieces

end
-- ==== Proof.BlockReads.lean ====
/-
  The blocks the pipeline hands the body, read at one index, and the two length words.

  Grid point `t` of the 16 x 2 x 8 grid is batch `t / 16`, block of query rows `(t / 8) % 2`, block of key rows `t % 8`.
  The query block at `t` is rows `1024·((t/8)%2) + r` of batch `t/16` of Q; the key block and the value block are rows
  `256·(t%8) + k` of that batch of K and of V; the two words the body loads are entry `t/16` of the length vectors.
-/
import proofs.«412665_j43782896615765_3_alg».proof.Proof.Gen.KernelIdeal.Frame
import proofs.«412665_j43782896615765_3_alg».proof.Proof.Pieces
import proofs.«412665_j43782896615765_3_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.BlockReads

open Cert.KernelIdeal Cert.KernelIdeal.Gen Idealize.ShloMosaic.ValueIdx

variable {F : FTy → Type} [FloatOps F]
variable (m : (ℓ : Loc nD τ sig) → Buf (Elt F) ℓ)

/-- The three coordinates of grid point `t`. -/
theorem coords0 (t : Fin grid0.N) : (grid0.coords t 0).val = t.val / 16 :=
  (by decide +kernel : ∀ t : Fin grid0.N, (grid0.coords t 0).val = t.val / 16) t
theorem coords1 (t : Fin grid0.N) : (grid0.coords t 1).val = (t.val / 8) % 2 :=
  (by decide +kernel : ∀ t : Fin grid0.N, (grid0.coords t 1).val = (t.val / 8) % 2) t
theorem coords2 (t : Fin grid0.N) : (grid0.coords t 2).val = t.val % 8 :=
  (by decide +kernel : ∀ t : Fin grid0.N, (grid0.coords t 2).val = t.val % 8) t

/-- The block index of the query window at point `t` is (t / 16, (t / 8) % 2, 0): decided over the grid. -/
private theorem idxQ : ∀ t : Fin grid0.N, cc0_transform_0 (grid0.coords t) 0 = t.val / 16
    ∧ cc0_transform_0 (grid0.coords t) 1 = (t.val / 8) % 2 ∧ cc0_transform_0 (grid0.coords t) 2 = 0 := by
  decide +kernel
/-- The block index of the key window at point `t` is (t / 16, t % 8, 0): decided over the grid. -/
private theorem idxK : ∀ t : Fin grid0.N, cc0_transform_1 (grid0.coords t) 0 = t.val / 16
    ∧ cc0_transform_1 (grid0.coords t) 1 = t.val % 8 ∧ cc0_transform_1 (grid0.coords t) 2 = 0 := by
  decide +kernel
/-- The block index of the value window at point `t` is (t / 16, t % 8, 0): decided over the grid. -/
private theorem idxV : ∀ t : Fin grid0.N, cc0_transform_2 (grid0.coords t) 0 = t.val / 16
    ∧ cc0_transform_2 (grid0.coords t) 1 = t.val % 8 ∧ cc0_transform_2 (grid0.coords t) 2 = 0 := by
  decide +kernel
/-- The offset of the two length words at point `t` is t / 16: decided over the grid. -/
private theorem offW : ∀ t : Fin grid0.N, k0_off1 (grid0.coords t) 0 = t.val / 16 := by
  decide +kernel

/-- An index of a [16, 2048, 1024] array given by three numbers below the extents is the index of Spec.lean at
    those numbers: the reductions modulo the extents do nothing. -/
private theorem at3_of_lt (i : Cert.Attn.SArr.Idx) (b q d : ℕ) (hb : b < 16) (hq : q < 2048) (hd : d < 1024)
    (h0 : (i 0).val = b) (h1 : (i 1).val = q) (h2 : (i 2).val = d) : i = Cert.Attn.at3 b q d := by
  funext a; apply Fin.ext
  match a with
  | ⟨0, _⟩ => show (i 0).val = b % 16; rw [h0, Nat.mod_eq_of_lt hb]
  | ⟨1, _⟩ => show (i 1).val = q % 2048; rw [h1, Nat.mod_eq_of_lt hq]
  | ⟨2, _⟩ => show (i 2).val = d % 1024; rw [h2, Nat.mod_eq_of_lt hd]

/-- An index of a 16-entry vector given by a number below 16 is the index of Spec.lean at that number. -/
private theorem at1_of_lt (i : Cert.Attn.SLen.Idx) (b : ℕ) (hb : b < 16) (h0 : (i 0).val = b) : i = Cert.Attn.at1 b := by
  funext a; apply Fin.ext
  match a with
  | ⟨0, _⟩ => show (i 0).val = b % 16; rw [h0, Nat.mod_eq_of_lt hb]

/-- The query, key and value blocks at point `t`, at their literal types. -/
abbrev qblk (hO : Ok m) (c : Dev nD) (t : Fin (cfgM m hO).N) : Vec F S1x1024x1024 .f32 := iblk m hO c 0 t
abbrev kblk (hO : Ok m) (c : Dev nD) (t : Fin (cfgM m hO).N) : Vec F S1x256x1024 .f32 := iblk m hO c 1 t
abbrev vblk (hO : Ok m) (c : Dev nD) (t : Fin (cfgM m hO).N) : Vec F S1x256x1024 .f32 := iblk m hO c 2 t

theorem qblk_at (hO : Ok m) (c : Dev nD) (t : Fin (cfgM m hO).N) (r d : Fin 1024) :
    qblk m hO c t (ix3 (0 : Fin 1) r d)
      = m ((c : Thread nD τ).loc main_arg0) (Cert.Attn.at3 (t.val / 16) (1024 * ((t.val / 8) % 2) + r.val) d.val) := by
  have hN : t.val < 256 := lt_of_lt_of_eq t.isLt (show (cfgM m hO).N = 256 from N_0)
  obtain ⟨i0, i1, i2⟩ := idxQ t
  unfold qblk iblk
  -- the block's view places index j of the block at (block index) * (block extent) + j on each axis of the array
  show m ((c : Thread nD τ).loc main_arg0) ((((cfgM m hO).win 0).blk t).view.emb (ix3 (0 : Fin 1) r d)) = _
  refine congrArg (m ((c : Thread nD τ).loc main_arg0)) (at3_of_lt _ _ _ _ (by omega) (by omega) d.isLt ?_ ?_ ?_)
  · show cc0_transform_0 (grid0.coords t) 0 * 1 + 1 * 0 = t.val / 16
    rw [i0]; omega
  · show cc0_transform_0 (grid0.coords t) 1 * 1024 + 1 * r.val = 1024 * ((t.val / 8) % 2) + r.val
    rw [i1]; omega
  · show cc0_transform_0 (grid0.coords t) 2 * 1024 + 1 * d.val = d.val
    rw [i2]; omega

theorem kblk_at (hO : Ok m) (c : Dev nD) (t : Fin (cfgM m hO).N) (k : Fin 256) (d : Fin 1024) :
    kblk m hO c t (ix3 (0 : Fin 1) k d)
      = m ((c : Thread nD τ).loc main_arg1) (Cert.Attn.at3 (t.val / 16) (256 * (t.val % 8) + k.val) d.val) := by
  have hN : t.val < 256 := lt_of_lt_of_eq t.isLt (show (cfgM m hO).N = 256 from N_0)
  obtain ⟨i0, i1, i2⟩ := idxK t
  unfold kblk iblk
  show m ((c : Thread nD τ).loc main_arg1) ((((cfgM m hO).win 1).blk t).view.emb (ix3 (0 : Fin 1) k d)) = _
  refine congrArg (m ((c : Thread nD τ).loc main_arg1)) (at3_of_lt _ _ _ _ (by omega) (by omega) d.isLt ?_ ?_ ?_)
  · show cc0_transform_1 (grid0.coords t) 0 * 1 + 1 * 0 = t.val / 16
    rw [i0]; omega
  · show cc0_transform_1 (grid0.coords t) 1 * 256 + 1 * k.val = 256 * (t.val % 8) + k.val
    rw [i1]; omega
  · show cc0_transform_1 (grid0.coords t) 2 * 1024 + 1 * d.val = d.val
    rw [i2]; omega

theorem vblk_at (hO : Ok m) (c : Dev nD) (t : Fin (cfgM m hO).N) (k : Fin 256) (d : Fin 1024) :
    vblk m hO c t (ix3 (0 : Fin 1) k d)
      = m ((c : Thread nD τ).loc main_arg2) (Cert.Attn.at3 (t.val / 16) (256 * (t.val % 8) + k.val) d.val) := by
  have hN : t.val < 256 := lt_of_lt_of_eq t.isLt (show (cfgM m hO).N = 256 from N_0)
  obtain ⟨i0, i1, i2⟩ := idxV t
  unfold vblk iblk
  show m ((c : Thread nD τ).loc main_arg2) ((((cfgM m hO).win 2).blk t).view.emb (ix3 (0 : Fin 1) k d)) = _
  refine congrArg (m ((c : Thread nD τ).loc main_arg2)) (at3_of_lt _ _ _ _ (by omega) (by omega) d.isLt ?_ ?_ ?_)
  · show cc0_transform_2 (grid0.coords t) 0 * 1 + 1 * 0 = t.val / 16
    rw [i0]; omega
  · show cc0_transform_2 (grid0.coords t) 1 * 256 + 1 * k.val = 256 * (t.val % 8) + k.val
    rw [i1]; omega
  · show cc0_transform_2 (grid0.coords t) 2 * 1024 + 1 * d.val = d.val
    rw [i2]; omega

/-- The query-length word the body loads at point `t` is entry `t / 16` of the first length vector. -/
theorem qword_at (hO : Ok m) (c : Dev nD) (t : Fin (cfgM m hO).N) :
    Cert.KernelIdeal.Pieces.qw c (grid0.coords t) (tbl m 0) = m ((c : Thread nD τ).loc main_arg3) (Cert.Attn.at1 (t.val / 16)) := by
  have hN : t.val < 256 := lt_of_lt_of_eq t.isLt (show (cfgM m hO).N = 256 from N_0)
  have ho := offW t
  obtain rfl : c = 0 := Subsingleton.elim _ _
  -- the whole vector read at the one-element rectangle is the vector at the rectangle's offset
  show m (((0 : Dev nD) : Thread nD τ).loc main_arg3)
    ((Rect.unit (s := S16) (k0_off1 (grid0.coords t)) S1.size (k0_off1_inb (grid0.coords t))).toLoadRect.idx (Shape.Idx.first (numel1_S1.symm ▸ Nat.one_pos))) = _
  refine congrArg (m (((0 : Dev nD) : Thread nD τ).loc main_arg3)) (at1_of_lt _ _ (by omega) ?_)
  show k0_off1 (grid0.coords t) 0 + 1 * 0 = t.val / 16
  rw [ho]; omega

/-- The key-length word the body loads at point `t` is entry `t / 16` of the second length vector. -/
theorem kword_at (hO : Ok m) (c : Dev nD) (t : Fin (cfgM m hO).N) :
    Cert.KernelIdeal.Pieces.kw c (grid0.coords t) (tbl m 1) = m ((c : Thread nD τ).loc main_arg4) (Cert.Attn.at1 (t.val / 16)) := by
  have hN : t.val < 256 := lt_of_lt_of_eq t.isLt (show (cfgM m hO).N = 256 from N_0)
  have ho := offW t
  obtain rfl : c = 0 := Subsingleton.elim _ _
  show m (((0 : Dev nD) : Thread nD τ).loc main_arg4)
    ((Rect.unit (s := S16) (k0_off1 (grid0.coords t)) S1.size (k0_off1_inb (grid0.coords t))).toLoadRect.idx (Shape.Idx.first (numel1_S1.symm ▸ Nat.one_pos))) = _
  refine congrArg (m (((0 : Dev nD) : Thread nD τ).loc main_arg4)) (at1_of_lt _ _ (by omega) ?_)
  show k0_off1 (grid0.coords t) 0 + 1 * 0 = t.val / 16
  rw [ho]; omega

end Cert.KernelIdeal.BlockReads

end
-- ==== Proof.Recurrence.lean ====
/-
  What the four carried buffers hold after each grid point, as the body's arithmetic of what they held after the
  point before — the recurrence the value proof inducts on.

  At grid point `t` the body works on the block of logits `sblk t`: the constant fill block when the block of keys
  starts at or past the key length (the first guard), the computed block otherwise (the second guard; exactly one
  of the two guards holds, so the four combinations of guards the case analysis of the run allows collapse to two).
  At the first block of a row of blocks (`t % 8 = 0`) the running maximum, denominator and numerator restart from
  the reset values; at every other block they continue from the point before; at the last block (`t % 8 = 7`) the
  output block is the new numerator divided by the new denominator.
-/
import proofs.«412665_j43782896615765_3_alg».proof.Proof.Gen.KernelIdeal.Frame
import proofs.«412665_j43782896615765_3_alg».proof.Proof.Pieces
import proofs.«412665_j43782896615765_3_alg».proof.Proof.BlockReads
import proofs.«412665_j43782896615765_3_alg».proof.Proof.FramesKernelIdeal

noncomputable section

open Idealize.ShloMosaic Idealize.ShloMosaic.TcCoe Idealize.SL.Sem

namespace Cert.KernelIdeal.Recurrence

open Cert.KernelIdeal Cert.KernelIdeal.Gen Cert.KernelIdeal.Pieces Cert.KernelIdeal.BlockReads

variable {F : FTy → Type} [FloatOps F]
variable (m : (ℓ : Loc nD τ sig) → Buf (Elt F) ℓ) (hO : Ok m) (hH : Hyps m hO) (c : Dev nD)

/-- The block of logits the body works on at point `t`. -/
def sblk (t : Fin (cfgM m hO).N) : Vec F S1x1024x256 .f32 :=
  if cond0_1 (grid0.coords t) (kw c (grid0.coords t) (tbl m 1)) then k0_pay8
  else sC c (grid0.coords t) (qblk m hO c t) (kblk m hO c t) (tbl m 0) (tbl m 1)

/-- What the buffers hold after point `n`: the running maximum, denominator, numerator, and the output block. -/
abbrev mAt (n : ℕ) (hn : n < (cfgM m hO).N) : Vec F S1x1024x1 .f32 := (outsAt0 m hO hH c n hn).2.1
abbrev lAt (n : ℕ) (hn : n < (cfgM m hO).N) : Vec F S1x1024x1 .f32 := (outsAt0 m hO hH c n hn).2.2.1
abbrev accAt (n : ℕ) (hn : n < (cfgM m hO).N) : Vec F S1x1024x1024 .f32 := (outsAt0 m hO hH c n hn).2.2.2.1
abbrev oAt (n : ℕ) (hn : n < (cfgM m hO).N) : Vec F S1x1024x1024 .f32 := (outsAt0 m hO hH c n hn).1

theorem prev_lt (t : Fin (cfgM m hO).N) : t.val - 1 < (cfgM m hO).N := Nat.lt_of_le_of_lt (Nat.sub_le _ _) t.isLt

/-- The first block of a row of blocks: the running values restart from the reset values. -/
theorem first_block (t : Fin (cfgM m hO).N) (h0 : t.val % 8 = 0) :
    mAt m hO hH c t.val t.isLt = k0_pay3 (k0_pay10 (sblk m hO c t) k0_pay5)
    ∧ lAt m hO hH c t.val t.isLt = k0_pay1 (k0_pay13 (sblk m hO c t) k0_pay5 k0_pay5 k0_pay6)
    ∧ accAt m hO hH c t.val t.isLt
        = k0_pay2 (k0_pay11 (sblk m hO c t) k0_pay5 k0_pay5) (k0_pay12 (sblk m hO c t) k0_pay5) (vblk m hO c t) k0_pay7 := by
  have h3 : ¬t.val % 8 = 7 := by omega
  unfold mAt lAt accAt
  by_cases h1 : cond0_1 (grid0.coords t) (kw c (grid0.coords t) (tbl m 1))
  · have h2 : ¬cond0_2 (grid0.coords t) (kw c (grid0.coords t) (tbl m 1)) := (Cert.KernelIdeal.Frames.cond_excl _ _).mp h1
    have hs : sblk m hO c t = k0_pay8 := if_pos h1
    rw [outsAt0_B m hO hH c t h0 h1 h2 h3, hs]
    dsimp only
    exact ⟨B_m .., B_l .., B_acc ..⟩
  · have h2 : cond0_2 (grid0.coords t) (kw c (grid0.coords t) (tbl m 1)) :=
      Classical.byContradiction fun h => h1 ((Cert.KernelIdeal.Frames.cond_excl _ _).mpr h)
    have hs : sblk m hO c t = sC c (grid0.coords t) (qblk m hO c t) (kblk m hO c t) (tbl m 0) (tbl m 1) := if_neg h1
    rw [outsAt0_C m hO hH c t h0 h1 h2 h3, hs]
    dsimp only
    exact ⟨C_m .., C_l .., C_acc ..⟩

/-- Every other block: the running values continue from the point before. -/
theorem next_block (t : Fin (cfgM m hO).N) (h0 : ¬t.val % 8 = 0) :
    mAt m hO hH c t.val t.isLt = k0_pay3 (k0_pay10 (sblk m hO c t) (mAt m hO hH c (t.val - 1) (prev_lt m hO t)))
    ∧ lAt m hO hH c t.val t.isLt
        = k0_pay1 (k0_pay13 (sblk m hO c t) (mAt m hO hH c (t.val - 1) (prev_lt m hO t)) (mAt m hO hH c (t.val - 1) (prev_lt m hO t))
            (lAt m hO hH c (t.val - 1) (prev_lt m hO t)))
    ∧ accAt m hO hH c t.val t.isLt
        = k0_pay2 (k0_pay11 (sblk m hO c t) (mAt m hO hH c (t.val - 1) (prev_lt m hO t)) (mAt m hO hH c (t.val - 1) (prev_lt m hO t)))
            (k0_pay12 (sblk m hO c t) (mAt m hO hH c (t.val - 1) (prev_lt m hO t))) (vblk m hO c t)
            (accAt m hO hH c (t.val - 1) (prev_lt m hO t)) := by
  unfold mAt lAt accAt
  by_cases h1 : cond0_1 (grid0.coords t) (kw c (grid0.coords t) (tbl m 1))
  · have h2 : ¬cond0_2 (grid0.coords t) (kw c (grid0.coords t) (tbl m 1)) := (Cert.KernelIdeal.Frames.cond_excl _ _).mp h1
    have hs : sblk m hO c t = k0_pay8 := if_pos h1
    by_cases h3 : t.val % 8 = 7
    · rw [outsAt0_J m hO hH c t h0 h1 h2 h3, hs]
      dsimp only
      exact ⟨J_m .., J_l .., J_acc ..⟩
    · rw [outsAt0_F m hO hH c t h0 h1 h2 h3, hs]
      dsimp only
      exact ⟨F_m .., F_l .., F_acc ..⟩
  · have h2 : cond0_2 (grid0.coords t) (kw c (grid0.coords t) (tbl m 1)) :=
      Classical.byContradiction fun h => h1 ((Cert.KernelIdeal.Frames.cond_excl _ _).mpr h)
    have hs : sblk m hO c t = sC c (grid0.coords t) (qblk m hO c t) (kblk m hO c t) (tbl m 0) (tbl m 1) := if_neg h1
    by_cases h3 : t.val % 8 = 7
    · rw [outsAt0_K m hO hH c t h0 h1 h2 h3, hs]
      dsimp only
      exact ⟨K_m .., K_l .., K_acc ..⟩
    · rw [outsAt0_G m hO hH c t h0 h1 h2 h3, hs]
      dsimp only
      exact ⟨G_m .., G_l .., G_acc ..⟩

/-- The last block of a row of blocks: the output block is the new numerator over the new denominator. -/
theorem last_block_out (t : Fin (cfgM m hO).N) (h7 : t.val % 8 = 7) :
    oAt m hO hH c t.val t.isLt = k0_pay4 (accAt m hO hH c t.val t.isLt) (lAt m hO hH c t.val t.isLt) := by
  have h0 : ¬t.val % 8 = 0 := by omega
  unfold oAt lAt accAt
  by_cases h1 : cond0_1 (grid0.coords t) (kw c (grid0.coords t) (tbl m 1))
  · have h2 : ¬cond0_2 (grid0.coords t) (kw c (grid0.coords t) (tbl m 1)) := (Cert.KernelIdeal.Frames.cond_excl _ _).mp h1
    rw [outsAt0_J m hO hH c t h0 h1 h2 h7]
    dsimp only
    exact (J_out ..).trans (congrArg₂ k0_pay4 (J_acc ..).symm (J_l ..).symm)
  · have h2 : cond0_2 (grid0.coords t) (kw c (grid0.coords t) (tbl m 1)) :=
      Classical.byContradiction fun h => h1 ((Cert.KernelIdeal.Frames.cond_excl _ _).mpr h)
    rw [outsAt0_K m hO hH c t h0 h1 h2 h7]
    dsimp only
    exact (K_out ..).trans (congrArg₂ k0_pay4 (K_acc ..).symm (K_l ..).symm)

end Cert.KernelIdeal.Recurrence

end
-- ==== Proof.StepAt.lean ====
/-
  The kernel body's arithmetic, one stored value at a time, read at one index over the extended reals.

  The body keeps for each of its 1024 query rows `r` a running maximum `m r`, a running denominator `l r` and a running
  numerator `acc r d`, and works on one block `s r k` of 256 logits and one block `v k d` of 256 value rows:
    the new maximum      m' r     = max (m r) (max_k s r k),
    the rescaling        a r      = e^(m r - m' r),            the weights  p r k = e^(s r k - m' r),
    the new denominator  l' r     = a r · l r + Σ_k p r k,
    the new numerator    acc' r d = a r · acc r d + Σ_k p r k · v k d,
    and the output       o r d    = acc r d / l r.
  Each lemma below states one of these for the stored value as the program computes it (a lane reduction, a
  broadcast along the lanes, a matrix product into a zero accumulator), at the index `(0, r, ·)`.
-/
import proofs.«412665_j43782896615765_3_alg».proof.Proof.Gen.KernelIdeal.Skeleton
import proofs.«412665_j43782896615765_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.StepAt

open Idealize.ShloMosaic Idealize.ShloMosaic.ValueIdx Cert.KernelIdeal Cert.KernelIdeal.Gen Finset

/-- The index `(0, r, 0)` of a per-row column. -/
abbrev row (r : Fin 1024) : S1x1024x1.Idx := ix3 (0 : Fin 1) r (0 : Fin 1)
/-- The index `(0, r, k)` of a block of logits. -/
abbrev rk (r : Fin 1024) (k : Fin 256) : S1x1024x256.Idx := ix3 (0 : Fin 1) r k
/-- The index `(0, r, d)` of the numerator, of a block of query rows and of the output block. -/
abbrev rd (r : Fin 1024) (d : Fin 1024) : S1x1024x1024.Idx := ix3 (0 : Fin 1) r d
/-- The index `(0, k, d)` of a block of key rows or of value rows. -/
abbrev kd (k : Fin 256) (d : Fin 1024) : S1x256x1024.Idx := ix3 (0 : Fin 1) k d

/-- A per-row column `[1, a, 1]` broadcast along the lanes to `[1, a, b]` reads, at `(u, p, c)`, the column at row `p`. -/
private theorem broadcastTo_1a1_1ab_apply {α : Type} {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

/-- A row vector `[1, a]` cast to the column `[1, a, 1]` reads, at `(u, i, w)`, the vector at `(0, i)`: both have
    row-major position `i`. -/
private theorem shapeCast_1a_1a1_apply {α : Type} {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.zero_mul, Nat.zero_add, Nat.mul_one, Nat.add_zero])

/-- The lane maximum starts from the word of `-∞`. -/
private theorem neg_inf_word : Ideal.ofBits .f32 0xFF800000#32 = ⊥ := by
  simp [Ideal.ofBits, Ideal.ieee]

/-- The index a lane reduction of a `[1, 1024, 256]` block reads at row `r` and lane `k` is `(0, r, k)`. -/
private theorem lift_lane (r : Fin 1024) (k : Fin 256) :
    Shape.Reduces.lift Facts₀.reduces_S1x1024x256_S1x1024 (ix2 (0 : Fin 1) r) k = rk r k :=
  funext fun a => Fin.ext (match a with | ⟨0, _⟩ => rfl | ⟨1, _⟩ => rfl | ⟨2, _⟩ => rfl)

/-- The fill word is the real number -2^32. -/
theorem fill_word : Ideal.ofBits .f32 0xCF800000#32 = ((Cert.Attn.fill : ℝ) : EReal) := by
  simp [Ideal.ofBits, Ideal.ieee, Cert.Attn.fill]
  norm_cast

/-- The initial running maximum: the fill value in every row. -/
theorem pay5_at (r : Fin 1024) : k0_pay5 (F := Ideal) (row r) = ((Cert.Attn.fill : ℝ) : EReal) := by
  unfold k0_pay5
  rw [shapeCast_self, broadcast_apply]
  exact fill_word

/-- The initial running denominator: zero. -/
theorem pay6_at (r : Fin 1024) : k0_pay6 (F := Ideal) (row r) = 0 := by
  unfold k0_pay6
  rw [shapeCast_self, broadcast_apply]
  exact Ideal.ofBits_zero_f32

/-- The initial running numerator: zero. -/
theorem pay7_at (r d : Fin 1024) : k0_pay7 (F := Ideal) (rd r d) = 0 := by
  unfold k0_pay7
  rw [shapeCast_self, broadcast_apply]
  exact Ideal.ofBits_zero_f32

/-- A block of logits wholly past the key length: the fill value everywhere. -/
theorem pay8_at (r : Fin 1024) (k : Fin 256) : k0_pay8 (F := Ideal) (rk r k) = ((Cert.Attn.fill : ℝ) : EReal) := by
  unfold k0_pay8
  rw [shapeCast_self, broadcast_apply]
  exact fill_word

/-- The new running maximum. -/
theorem pay10_at (s : Vec Ideal S1x1024x256 .f32) (m : Vec Ideal S1x1024x1 .f32) (r : Fin 1024) :
    k0_pay10 s m (row r) = max (m (row r)) ((univ : Finset (Fin 256)).fold max (⊥ : EReal) fun k => s (rk r k)) := by
  unfold k0_pay10
  rw [maximumf_apply, shapeCast_1a_1a1_apply]
  refine congrArg (max (m (row r))) ?_
  refine (Ideal.multiReduction_maximumf_single _ _ _ _ _ _).trans ?_
  have hl : (s ∘ Shape.Reduces.lift Facts₀.reduces_S1x1024x256_S1x1024 (ix2 (0 : Fin 1) r)) = fun k : Fin 256 => s (rk r k) :=
    funext fun k => congrArg s (lift_lane r k)
  rw [hl]
  exact congrArg (fun b => (univ : Finset (Fin 256)).fold max b fun k => s (rk r k)) neg_inf_word

/-- The rescaling factor of the old sums. -/
theorem pay11_at (s : Vec Ideal S1x1024x256 .f32) (m m' : Vec Ideal S1x1024x1 .f32) (r : Fin 1024) :
    k0_pay11 s m m' (row r) = Ideal.exp (m' (row r) - k0_pay10 s m (row r)) := by
  unfold k0_pay11
  rfl

/-- The block's weights. -/
theorem pay12_at (s : Vec Ideal S1x1024x256 .f32) (m : Vec Ideal S1x1024x1 .f32) (r : Fin 1024) (k : Fin 256) :
    k0_pay12 s m (rk r k) = Ideal.exp (s (rk r k) - k0_pay10 s m (row r)) := by
  unfold k0_pay12
  show Ideal.exp (s (rk r k) - broadcastTo S1x1024x256 (k0_pay10 s m) broadcasts_S1x1024x1_S1x1024x256 (rk r k)) = _
  rw [broadcastTo_1a1_1ab_apply]

/-- The new running denominator. -/
theorem pay13_at (s : Vec Ideal S1x1024x256 .f32) (m m' l : Vec Ideal S1x1024x1 .f32) (r : Fin 1024) :
    k0_pay13 s m m' l (row r) = k0_pay11 s m m' (row r) * l (row r) + ∑ k : Fin 256, k0_pay12 s m (rk r k) := by
  unfold k0_pay13
  rw [addf_apply, mulf_apply, shapeCast_1a_1a1_apply]
  refine congrArg (k0_pay11 s m m' (row r) * l (row r) + ·) ?_
  refine (Ideal.multiReduction_add_single _ _ _ _ _ _).trans ?_
  exact Finset.sum_congr rfl fun k _ => congrArg (k0_pay12 s m) (lift_lane r k)

/-- The stored denominator is the computed one. -/
theorem pay1_at (x : FVec Ideal S1x1024x1 .f32) (i : S1x1024x1.Idx) : k0_pay1 x i = x i := by
  unfold k0_pay1
  rw [shapeCast_self]

/-- The stored maximum is the computed one. -/
theorem pay3_at (x : FVec Ideal S1x1024x1 .f32) (i : S1x1024x1.Idx) : k0_pay3 x i = x i := by
  unfold k0_pay3
  rw [shapeCast_self]

/-! The matrix product `p · v` contracts the lanes of `p` (axis 2) with the rows of `v` (axis 1); axis 0 is the batch
    axis of both, axis 1 of `p` and axis 2 of `v` are kept. The six lemmas read its two operand indices one axis at a
    time. -/

private theorem lhs_pv_0 (i : S1x1024x1024.Idx) (q : dot_S1x1024x256_S1x256x1024_S1x1024x1024_2_1_1_2_0_0.contr.Idx) :
    (dot_S1x1024x256_S1x256x1024_S1x1024x1024_2_1_1_2_0_0.lhsIdx i q 0).val = (i 0).val := by
  unfold DotDims.lhsIdx
  rw [dif_pos (show (0 : Fin S1x1024x256.rank) ∈ dot_S1x1024x256_S1x256x1024_S1x1024x1024_2_1_1_2_0_0.lhsBatch by decide)]
  rfl
private theorem lhs_pv_1 (i : S1x1024x1024.Idx) (q : dot_S1x1024x256_S1x256x1024_S1x1024x1024_2_1_1_2_0_0.contr.Idx) :
    (dot_S1x1024x256_S1x256x1024_S1x1024x1024_2_1_1_2_0_0.lhsIdx i q 1).val = (i 1).val := by
  unfold DotDims.lhsIdx
  rw [dif_neg (show ¬(1 : Fin S1x1024x256.rank) ∈ dot_S1x1024x256_S1x256x1024_S1x1024x1024_2_1_1_2_0_0.lhsBatch by decide), dif_pos (show (1 : Fin S1x1024x256.rank) ∈ dot_S1x1024x256_S1x256x1024_S1x1024x1024_2_1_1_2_0_0.lhsNonContracting by decide)]
  rfl
private theorem lhs_pv_2 (i : S1x1024x1024.Idx) (q : dot_S1x1024x256_S1x256x1024_S1x1024x1024_2_1_1_2_0_0.contr.Idx) :
    (dot_S1x1024x256_S1x256x1024_S1x1024x1024_2_1_1_2_0_0.lhsIdx i q 2).val = (q ⟨0, by decide⟩).val :=
  dot_S1x1024x256_S1x256x1024_S1x1024x1024_2_1_1_2_0_0.lhsIdx_val_of_single rfl i q
private theorem rhs_pv_0 (i : S1x1024x1024.Idx) (q : dot_S1x1024x256_S1x256x1024_S1x1024x1024_2_1_1_2_0_0.contr.Idx) :
    (dot_S1x1024x256_S1x256x1024_S1x1024x1024_2_1_1_2_0_0.rhsIdx i q 0).val = (i 0).val := by
  unfold DotDims.rhsIdx
  rw [dif_pos (show (0 : Fin S1x256x1024.rank) ∈ dot_S1x1024x256_S1x256x1024_S1x1024x1024_2_1_1_2_0_0.rhsBatch by decide)]
  rfl
private theorem rhs_pv_1 (i : S1x1024x1024.Idx) (q : dot_S1x1024x256_S1x256x1024_S1x1024x1024_2_1_1_2_0_0.contr.Idx) :
    (dot_S1x1024x256_S1x256x1024_S1x1024x1024_2_1_1_2_0_0.rhsIdx i q 1).val = (q ⟨0, by decide⟩).val :=
  dot_S1x1024x256_S1x256x1024_S1x1024x1024_2_1_1_2_0_0.rhsIdx_val_of_single rfl i q
private theorem rhs_pv_2 (i : S1x1024x1024.Idx) (q : dot_S1x1024x256_S1x256x1024_S1x1024x1024_2_1_1_2_0_0.contr.Idx) :
    (dot_S1x1024x256_S1x256x1024_S1x1024x1024_2_1_1_2_0_0.rhsIdx i q 2).val = (i 2).val := by
  unfold DotDims.rhsIdx
  rw [dif_neg (show ¬(2 : Fin S1x256x1024.rank) ∈ dot_S1x1024x256_S1x256x1024_S1x1024x1024_2_1_1_2_0_0.rhsBatch by decide), dif_pos (show (2 : Fin S1x256x1024.rank) ∈ dot_S1x1024x256_S1x256x1024_S1x1024x1024_2_1_1_2_0_0.rhsNonContracting by decide)]
  rfl

/-- The new running numerator. -/
theorem pay2_at (a : FVec Ideal S1x1024x1 .f32) (p : FVec Ideal S1x1024x256 .f32) (v : Vec Ideal S1x256x1024 .f32)
    (acc : Vec Ideal S1x1024x1024 .f32) (r d : Fin 1024) :
    k0_pay2 a p v acc (rd r d) = a (row r) * acc (rd r d) + ∑ k : Fin 256, p (rk r k) * v (kd k d) := by
  unfold k0_pay2
  rw [shapeCast_self, addf_apply, mulf_apply, broadcastTo_1a1_1ab_apply]
  refine congrArg (a (row r) * acc (rd r d) + ·) ?_
  refine (Ideal.matmul_constant_zero_apply dot_S1x1024x256_S1x256x1024_S1x1024x1024_2_1_1_2_0_0 none _ _ _).trans ?_
  rw [← Equiv.sum_comp (ValueIdx.contrEquiv1 dot_S1x1024x256_S1x256x1024_S1x1024x1024_2_1_1_2_0_0 256 rfl rfl).symm]
  refine Finset.sum_congr rfl fun k _ => ?_
  have hk := ValueIdx.contrEquiv1_symm_val dot_S1x1024x256_S1x256x1024_S1x1024x1024_2_1_1_2_0_0 256 rfl rfl k
  have el : dot_S1x1024x256_S1x256x1024_S1x1024x1024_2_1_1_2_0_0.lhsIdx (rd r d) ((ValueIdx.contrEquiv1 dot_S1x1024x256_S1x256x1024_S1x1024x1024_2_1_1_2_0_0 256 rfl rfl).symm k) = rk r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S1x1024x256_S1x256x1024_S1x1024x1024_2_1_1_2_0_0.rhsIdx (rd r d) ((ValueIdx.contrEquiv1 dot_S1x1024x256_S1x256x1024_S1x1024x1024_2_1_1_2_0_0 256 rfl rfl).symm k) = kd k d := funext fun a => Fin.ext (by
    match a with
    | ⟨0, _⟩ => exact rhs_pv_0 _ _
    | ⟨1, _⟩ => exact (rhs_pv_1 _ _).trans hk
    | ⟨2, _⟩ => exact rhs_pv_2 _ _)
  rw [truncf_apply, truncf_apply, el, er]

/-- The output: numerator over denominator. -/
theorem pay4_at (acc : Vec Ideal S1x1024x1024 .f32) (l : Vec Ideal S1x1024x1 .f32) (r d : Fin 1024) :
    k0_pay4 acc l (rd r d) = Ideal.div (acc (rd r d)) (l (row r)) := by
  unfold k0_pay4
  rw [divf_apply, broadcastTo_1a1_1ab_apply]

end Cert.KernelIdeal.StepAt

end
-- ==== Proof.OnlineSoftmax.lean ====
/-
  The algebra of a softmax accumulated block by block ("online softmax"), over the extended reals with
  real data, and the fact that a softmax does not depend on the constant subtracted from its logits.

  A row keeps a running maximum `m`, a running denominator `l` and a running numerator `acc`. A block of
  256 new logits `s k` and values `w k` updates them to
    m' = max m (max over the block of s),   l' = e^(m - m') · l + Σ_k e^(s k - m'),
    acc' = e^(m - m') · acc + Σ_k e^(s k - m') · w k.
  If before the block `l = Σ_{K < n} e^(S K - m)` and `acc = Σ_{K < n} e^(S K - m) · W K` then afterwards the same
  holds with `n + 256` and `m'`: the factor e^(m - m') turns every old term e^(S K - m) into e^(S K - m').
  Only that `m'` is SOME real number is used, never that it is the maximum.
-/
import Idealize.ShloMosaic.PureOps.Ideal
import Mathlib.Analysis.SpecialFunctions.Exp
import Mathlib.Algebra.BigOperators.Intervals

noncomputable section

namespace Cert.OnlineSoftmax

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion of the larger of two reals is the larger of the two coercions (the coercion is monotone). -/
private theorem coe_max' (x y : ℝ) : ((max x y : ℝ) : EReal) = max (x : EReal) (y : EReal) :=
  EReal.coe_strictMono.monotone.map_max

/-- A real maximised with a fold of real maxima from `-∞` is a real: by induction on the set, the empty
    fold being `-∞` (absorbed by the real) and each new element being absorbed into the real. -/
private theorem max_fold_aux {ι : Type*} (s : Finset ι) (f : ι → ℝ) :
    ∀ μ : ℝ, ∃ μ' : ℝ, max (μ : EReal) (s.fold max (⊥ : EReal) fun k => (f k : EReal)) = (μ' : EReal) := by
  classical
  induction s using Finset.induction_on with
  | empty => exact fun μ => ⟨μ, by rw [Finset.fold_empty, max_bot_right]⟩
  | insert a s ha ih =>
    intro μ
    obtain ⟨μ', h⟩ := ih (max μ (f a))
    exact ⟨μ', by rw [Finset.fold_insert ha, ← max_assoc, ← coe_max', h]⟩

/-- The maximum of finitely many reals, folded from `-∞`, is a real when there is at least one. -/
theorem fold_max_real {ι : Type*} (s : Finset ι) (hs : s.Nonempty) (f : ι → ℝ) :
    ∃ M : ℝ, s.fold max (⊥ : EReal) (fun k => (f k : EReal)) = (M : EReal) := by
  classical
  obtain ⟨a, ha⟩ := hs
  -- split off one element `a`: the fold is `max (f a)` of the fold over the rest
  obtain ⟨M, hM⟩ := max_fold_aux (s.erase a) f (f a)
  exact ⟨M, by rw [← Finset.insert_erase ha, Finset.fold_insert (Finset.notMem_erase a s), hM]⟩

/-- A real maximised with such a fold is a real, whether or not the fold is over anything. -/
theorem max_fold_real {ι : Type*} (s : Finset ι) (μ : ℝ) (f : ι → ℝ) :
    ∃ μ' : ℝ, max (μ : EReal) (s.fold max (⊥ : EReal) fun k => (f k : EReal)) = (μ' : EReal) :=
  max_fold_aux s f μ

/-- The real identity behind one block's update: `e^(μ - μ') · e^(S K - μ) = e^(S K - μ')` term by term on the
    first `n` terms, and the block supplies the terms `n ≤ K < n + 256`. -/
private theorem real_step (S W : ℕ → ℝ) (n : ℕ) (μ μ' : ℝ) :
    Real.exp (μ - μ') * (∑ K ∈ range n, Real.exp (S K - μ) * W K)
        + ∑ k : Fin 256, Real.exp (S (n + k.val) - μ') * W (n + k.val)
      = ∑ K ∈ range (n + 256), Real.exp (S K - μ') * W K := by
  rw [Finset.sum_range_add, Finset.mul_sum, Finset.sum_range (fun x => Real.exp (S (n + x) - μ') * W (n + x))]
  congr 1
  refine Finset.sum_congr rfl fun K _ => ?_
  rw [← mul_assoc, ← Real.exp_add]
  congr 2
  ring

/-- One block's update of the running denominator. -/
theorem step_sum (S : ℕ → ℝ) (n : ℕ) (μ μ' : ℝ) :
    Ideal.exp ((μ : EReal) - (μ' : EReal)) * ((∑ K ∈ range n, Real.exp (S K - μ) : ℝ) : EReal)
        + ∑ k : Fin 256, Ideal.exp ((S (n + k.val) : EReal) - (μ' : EReal))
      = ((∑ K ∈ range (n + 256), Real.exp (S K - μ') : ℝ) : EReal) := by
  have h1 : ∀ k : Fin 256, Ideal.exp ((S (n + k.val) : EReal) - (μ' : EReal))
      = ((Real.exp (S (n + k.val) - μ') : ℝ) : EReal) := fun k => by
    rw [← EReal.coe_sub, Ideal.exp_coe]
  -- the case `W = 1` of the real identity
  have h2 := real_step S (fun _ => 1) n μ μ'
  simp only [mul_one] at h2
  simp only [h1]
  rw [← coe_sum, ← EReal.coe_sub, Ideal.exp_coe, ← EReal.coe_mul, ← EReal.coe_add, h2]

/-- One block's update of the running numerator. -/
theorem step_acc (S W : ℕ → ℝ) (n : ℕ) (μ μ' : ℝ) :
    Ideal.exp ((μ : EReal) - (μ' : EReal)) * ((∑ K ∈ range n, Real.exp (S K - μ) * W K : ℝ) : EReal)
        + ∑ k : Fin 256, Ideal.exp ((S (n + k.val) : EReal) - (μ' : EReal)) * (W (n + k.val) : EReal)
      = ((∑ K ∈ range (n + 256), Real.exp (S K - μ') * W K : ℝ) : EReal) := by
  have h1 : ∀ k : Fin 256, Ideal.exp ((S (n + k.val) : EReal) - (μ' : EReal)) * (W (n + k.val) : EReal)
      = ((Real.exp (S (n + k.val) - μ') * W (n + k.val) : ℝ) : EReal) := fun k => by
    rw [← EReal.coe_sub, Ideal.exp_coe, ← EReal.coe_mul]
  simp only [h1]
  rw [← coe_sum, ← EReal.coe_sub, Ideal.exp_coe, ← EReal.coe_mul, ← EReal.coe_add, real_step]

/-- A sum of exponentials over a nonempty range is positive. -/
theorem sum_exp_pos (S : ℕ → ℝ) (N : ℕ) (hN : 0 < N) (μ : ℝ) : 0 < ∑ K ∈ range N, Real.exp (S K - μ) :=
  Finset.sum_pos (fun K _ => Real.exp_pos _) (Finset.nonempty_range_iff.mpr hN.ne')

/-- The ideal quotient of two reals with a nonzero divisor is the real quotient. -/
theorem div_real (A L : ℝ) (hL : L ≠ 0) : Ideal.div (A : EReal) (L : EReal) = ((A / L : ℝ) : EReal) := by
  rw [Ideal.div_coe hL, ← EReal.coe_mul, mul_one_div]

/-- A softmax-weighted sum does not depend on the constant subtracted from the logits. -/
theorem softmax_shift (S W : ℕ → ℝ) (N : ℕ) (hN : 0 < N) (μ μ' : ℝ) :
    (∑ K ∈ range N, Real.exp (S K - μ) * W K) / (∑ K ∈ range N, Real.exp (S K - μ))
      = (∑ K ∈ range N, Real.exp (S K - μ') * W K) / (∑ K ∈ range N, Real.exp (S K - μ')) := by
  -- every weight for `μ` is the weight for `μ'` times the same nonzero constant `e^(μ' - μ)`
  have hc : ∀ K, Real.exp (S K - μ) = Real.exp (μ' - μ) * Real.exp (S K - μ') := fun K => by
    rw [← Real.exp_add]
    congr 1
    ring
  have h1 : ∑ K ∈ range N, Real.exp (S K - μ) * W K
      = Real.exp (μ' - μ) * ∑ K ∈ range N, Real.exp (S K - μ') * W K := by
    rw [Finset.mul_sum]
    exact Finset.sum_congr rfl fun K _ => by rw [hc K, mul_assoc]
  have h2 : ∑ K ∈ range N, Real.exp (S K - μ) = Real.exp (μ' - μ) * ∑ K ∈ range N, Real.exp (S K - μ') := by
    rw [Finset.mul_sum]
    exact Finset.sum_congr rfl fun K _ => hc K
  rw [h1, h2, mul_div_mul_left _ _ (Real.exp_ne_zero _)]

/-- Normalising each weight first and summing afterwards is the quotient of the two sums. -/
theorem sum_div_mul (S W : ℕ → ℝ) (N : ℕ) (M : ℝ) :
    ∑ K ∈ range N, Real.exp (S K - M) / (∑ J ∈ range N, Real.exp (S J - M)) * W K
      = (∑ K ∈ range N, Real.exp (S K - M) * W K) / (∑ J ∈ range N, Real.exp (S J - M)) := by
  rw [Finset.sum_div]
  exact Finset.sum_congr rfl fun K _ => div_mul_eq_mul_div _ _ _

end Cert.OnlineSoftmax

end
-- ==== Proof.LogitBlock.lean ====
/-
  A computed block of logits, read at one index over the extended reals.

  Where the block is not wholly past the key length the body forms, for query row `r` and key row `k` of the blocks
  it loaded, three matrix products of the rows and of their correction terms `x - x` (what is left of a split of
  each entry into a leading part and a remainder once every change of format is the identity), adds them, and
  keeps the sum where the query position `1024·i₁ + r` and the key position `256·i₂ + k` are both inside their
  lengths, putting the fill value elsewhere. For real entries `x - x = 0`, so two of the three products vanish
  and the kept value is the plain dot product of the two rows.
-/
import proofs.«412665_j43782896615765_3_alg».proof.Proof.StepAt
import proofs.«412665_j43782896615765_3_alg».proof.Proof.OnlineSoftmax

noncomputable section

namespace Cert.KernelIdeal.StepAt

open Idealize.ShloMosaic Idealize.ShloMosaic.ValueIdx Cert.KernelIdeal Cert.KernelIdeal.Gen Finset

/-! ## The product of a block of query rows with a block of key rows, at one index -/

/-- The left operand's index keeps the batch coordinate of the output index … -/
private theorem lhs_qk_0 (j : S1x1024x256.Idx) (c : dot_S1x1024x1024_S1x256x1024_S1x1024x256_2_2_1_1_0_0.contr.Idx) :
    (dot_S1x1024x1024_S1x256x1024_S1x1024x256_2_2_1_1_0_0.lhsIdx j c 0).val = (j 0).val := by
  unfold DotDims.lhsIdx
  rw [dif_pos (show (0 : Fin S1x1024x1024.rank) ∈ dot_S1x1024x1024_S1x256x1024_S1x1024x256_2_2_1_1_0_0.lhsBatch by decide)]
  rfl

/-- … takes the output's row coordinate as its row … -/
private theorem lhs_qk_1 (j : S1x1024x256.Idx) (c : dot_S1x1024x1024_S1x256x1024_S1x1024x256_2_2_1_1_0_0.contr.Idx) :
    (dot_S1x1024x1024_S1x256x1024_S1x1024x256_2_2_1_1_0_0.lhsIdx j c 1).val = (j 1).val := by
  unfold DotDims.lhsIdx
  rw [dif_neg (show ¬(1 : Fin S1x1024x1024.rank) ∈ dot_S1x1024x1024_S1x256x1024_S1x1024x256_2_2_1_1_0_0.lhsBatch by decide),
    dif_pos (show (1 : Fin S1x1024x1024.rank) ∈ dot_S1x1024x1024_S1x256x1024_S1x1024x256_2_2_1_1_0_0.lhsNonContracting by decide)]
  rfl

/-- … and the contraction index as its last coordinate. -/
private theorem lhs_qk_2 (j : S1x1024x256.Idx) (c : dot_S1x1024x1024_S1x256x1024_S1x1024x256_2_2_1_1_0_0.contr.Idx) :
    (dot_S1x1024x1024_S1x256x1024_S1x1024x256_2_2_1_1_0_0.lhsIdx j c 2).val = (c ⟨0, by decide⟩).val :=
  dot_S1x1024x1024_S1x256x1024_S1x1024x256_2_2_1_1_0_0.lhsIdx_val_of_single rfl j c

/-- The right operand's index keeps the batch coordinate of the output index … -/
private theorem rhs_qk_0 (j : S1x1024x256.Idx) (c : dot_S1x1024x1024_S1x256x1024_S1x1024x256_2_2_1_1_0_0.contr.Idx) :
    (dot_S1x1024x1024_S1x256x1024_S1x1024x256_2_2_1_1_0_0.rhsIdx j c 0).val = (j 0).val := by
  unfold DotDims.rhsIdx
  rw [dif_pos (show (0 : Fin S1x256x1024.rank) ∈ dot_S1x1024x1024_S1x256x1024_S1x1024x256_2_2_1_1_0_0.rhsBatch by decide)]
  rfl

/-- … takes the output's column coordinate as its row … -/
private theorem rhs_qk_1 (j : S1x1024x256.Idx) (c : dot_S1x1024x1024_S1x256x1024_S1x1024x256_2_2_1_1_0_0.contr.Idx) :
    (dot_S1x1024x1024_S1x256x1024_S1x1024x256_2_2_1_1_0_0.rhsIdx j c 1).val = (j 2).val := by
  unfold DotDims.rhsIdx
  rw [dif_neg (show ¬(1 : Fin S1x256x1024.rank) ∈ dot_S1x1024x1024_S1x256x1024_S1x1024x256_2_2_1_1_0_0.rhsBatch by decide),
    dif_pos (show (1 : Fin S1x256x1024.rank) ∈ dot_S1x1024x1024_S1x256x1024_S1x1024x256_2_2_1_1_0_0.rhsNonContracting by decide)]
  rfl

/-- … and the contraction index as its last coordinate. -/
private theorem rhs_qk_2 (j : S1x1024x256.Idx) (c : dot_S1x1024x1024_S1x256x1024_S1x1024x256_2_2_1_1_0_0.contr.Idx) :
    (dot_S1x1024x1024_S1x256x1024_S1x1024x256_2_2_1_1_0_0.rhsIdx j c 2).val = (c ⟨0, by decide⟩).val :=
  dot_S1x1024x1024_S1x256x1024_S1x1024x256_2_2_1_1_0_0.rhsIdx_val_of_single rfl j c

/-- The product into a zero accumulator, at `(0, r, k)`: the sum over the 1024 lanes `d` of the left operand's
    entry `(0, r, d)` times the right operand's entry `(0, k, d)`. -/
private theorem mm_at {φ₁ φ₂ : FTy} (a : FVec Ideal S1x1024x1024 φ₁) (b : FVec Ideal S1x256x1024 φ₂) (r : Fin 1024) (k : Fin 256) :
    matmul dot_S1x1024x1024_S1x256x1024_S1x1024x256_2_2_1_1_0_0 none a b (constant S1x1024x256 .f32 0x00000000#32) (rk r k)
      = ∑ d : Fin 1024, a (rd r d) * b (kd k d) := by
  simp only [matmul]
  rw [Ideal.matmul_constant_zero_apply,
    ← Equiv.sum_comp (ValueIdx.contrEquiv1 dot_S1x1024x1024_S1x256x1024_S1x1024x256_2_2_1_1_0_0 1024 rfl rfl).symm]
  refine Finset.sum_congr rfl fun d _ => ?_
  have hd := ValueIdx.contrEquiv1_symm_val dot_S1x1024x1024_S1x256x1024_S1x1024x256_2_2_1_1_0_0 1024 rfl rfl d
  have el : dot_S1x1024x1024_S1x256x1024_S1x1024x256_2_2_1_1_0_0.lhsIdx (rk r k)
      ((ValueIdx.contrEquiv1 dot_S1x1024x1024_S1x256x1024_S1x1024x256_2_2_1_1_0_0 1024 rfl rfl).symm d) = rd r d :=
    funext fun x => Fin.ext (by
      match x with
      | ⟨0, _⟩ => exact lhs_qk_0 _ _
      | ⟨1, _⟩ => exact lhs_qk_1 _ _
      | ⟨2, _⟩ => exact (lhs_qk_2 _ _).trans hd)
  have er : dot_S1x1024x1024_S1x256x1024_S1x1024x256_2_2_1_1_0_0.rhsIdx (rk r k)
      ((ValueIdx.contrEquiv1 dot_S1x1024x1024_S1x256x1024_S1x1024x256_2_2_1_1_0_0 1024 rfl rfl).symm d) = kd k d :=
    funext fun x => Fin.ext (by
      match x with
      | ⟨0, _⟩ => exact rhs_qk_0 _ _
      | ⟨1, _⟩ => exact rhs_qk_1 _ _
      | ⟨2, _⟩ => exact (rhs_qk_2 _ _).trans hd)
  rw [el, er]

/-! ## The three products for real rows -/

/-- For real rows the product of the rows plus the two products against the corrections `y - y` and `x - x` is the real
    dot product: a real number minus itself is zero, a product with zero is zero, and a sum of zeros is zero. -/
private theorem dots_real (x y : Fin 1024 → ℝ) :
    ((∑ d : Fin 1024, (x d : EReal) * (y d : EReal)) + ∑ d : Fin 1024, (x d : EReal) * ((y d : EReal) - (y d : EReal)))
        + ∑ d : Fin 1024, ((x d : EReal) - (x d : EReal)) * (y d : EReal)
      = ((∑ d : Fin 1024, x d * y d : ℝ) : EReal) := by
  have h0 : ∀ t : ℝ, (t : EReal) - (t : EReal) = 0 := fun t => by rw [← EReal.coe_sub, sub_self, EReal.coe_zero]
  simp only [h0, mul_zero, zero_mul, Finset.sum_const_zero, add_zero, ← EReal.coe_mul]
  rw [Cert.OnlineSoftmax.coe_sum]

/-! ## The positions and the mask -/

/-- The word of a block's first position plus the word of an offset is the word of the position. -/
private theorem word_pos (c a t : ℕ) :
    IntOp.addi (Scalar.muli (BitVec.ofNat 32 a) (BitVec.ofNat 32 c)) (BitVec.ofNat 32 t) = BitVec.ofNat 32 (c * a + t) := by
  show BitVec.ofNat 32 a * BitVec.ofNat 32 c + BitVec.ofNat 32 t = _
  rw [BitVec.ofNat_add, BitVec.ofNat_mul, BitVec.mul_comm]

/-- The conjunction of two signed comparisons, as a one-bit word, is `1` exactly when both hold. -/
private theorem mask_bit (x y lq lk : BitVec 32) :
    IntOp.andi (IntOp.cmpi .slt x lq) (IntOp.cmpi .slt y lk) = 1#1 ↔ (x.slt lq = true ∧ y.slt lk = true) := by
  show BitVec.ofBool (x.slt lq) &&& BitVec.ofBool (y.slt lk) = 1#1 ↔ _
  cases x.slt lq <;> cases y.slt lk <;> decide

/-- A select on a one-bit word that is `1` exactly when `P` holds is the `if` on `P`. -/
private theorem select_of_iff {α : Type} (c : BitVec 1) (P : Prop) [Decidable P] (h : c = 1#1 ↔ P) (A B : α) :
    Scalar.select c A B = if P then A else B := by
  by_cases hP : P
  · rw [if_pos hP, h.mpr hP, select_one]
  · rw [if_neg hP, eq_zero_of_ne_one (fun hc => hP (h.mp hc)), select_zero]

/-- A comparison of words at an index compares the elements. -/
private theorem cmpi_apply {s : Shape} {w : Nat} (p : CmpIPredicate) (x y : IVec s w) (j : s.Idx) :
    cmpi p x y j = IntOp.cmpi p (x j) (y j) := rfl
/-- A bitwise conjunction at an index is that of the elements. -/
private theorem andi_apply {s : Shape} {w : Nat} (x y : IVec s w) (j : s.Idx) : andi x y j = IntOp.andi (x j) (y j) := rfl
/-- A sum of words at an index is the sum of the elements. -/
private theorem addi_apply {s : Shape} {w : Nat} (x y : IVec s w) (j : s.Idx) : addi x y j = IntOp.addi (x j) (y j) := rfl

/-- A computed block of logits: where the query position `1024·i₁ + r` and the key position `256·i₂ + k` are both
    inside their lengths (signed comparisons of 32-bit words) the dot product of the query row with the key row —
    the two compensation products vanish, their correction factors being `x - x = 0` for real `x` —, elsewhere the fill. -/
theorem pay9_at (i : grid0.Coords) (lq lk : BitVec 32) (q : Vec Ideal S1x1024x1024 .f32) (kb : Vec Ideal S1x256x1024 .f32)
    (qR : Fin 1024 → Fin 1024 → ℝ) (kR : Fin 256 → Fin 1024 → ℝ)
    (hq : ∀ r d, q (rd r d) = ((qR r d : ℝ) : EReal)) (hk : ∀ k d, kb (kd k d) = ((kR k d : ℝ) : EReal))
    (r : Fin 1024) (k : Fin 256) :
    k0_pay9 i lq lk q kb (rk r k)
      = if (BitVec.ofNat 32 (1024 * (i 1).val + r.val)).slt lq = true ∧ (BitVec.ofNat 32 (256 * (i 2).val + k.val)).slt lk = true
        then ((∑ d : Fin 1024, qR r d * kR k d : ℝ) : EReal) else ((Cert.Attn.fill : ℝ) : EReal) := by
  unfold k0_pay9
  simp only [shapeCast_self, select_apply, broadcast_apply, cmpi_apply, andi_apply, addi_apply, addf_apply, mm_at,
    truncf_apply, subf_apply]
  -- the two position words
  have e1 : iota .tc S1x1024x256 32 [1] iota_S1x1024x256_d1_w32 (rk r k) = BitVec.ofNat 32 r.val :=
    iota_single_apply .tc S1x1024x256 32 1 iota_S1x1024x256_d1_w32 (rk r k)
  have e2 : iota .tc S1x1024x256 32 [2] iota_S1x1024x256_d2_w32 (rk r k) = BitVec.ofNat 32 k.val :=
    iota_single_apply .tc S1x1024x256 32 2 iota_S1x1024x256_d2_w32 (rk r k)
  rw [e1, e2, word_pos 1024 (i 1).val r.val, word_pos 256 (i 2).val k.val]
  -- the kept value: the real dot product
  simp only [hq, hk]
  rw [dots_real (qR r) (kR k)]
  -- the fill
  have hf : (FloatOps.ofBits .f32 0xCF800000#32 : Ideal .f32) = ((Cert.Attn.fill : ℝ) : EReal) := fill_word
  rw [hf]
  exact select_of_iff _ _ (mask_bit _ _ lq lk) _ _

end Cert.KernelIdeal.StepAt

end
-- ==== Proof.LogitsAt.lean ====
/-
  The block of logits and the block of value rows the body works on at a grid point, read at one index, as the
  real-valued logits and value entries of Spec.lean.

  At grid point `t` (batch `t/16`, query rows from `1024·((t/8)%2)`, key rows from `256·(t%8)`) the block of logits at
  `(r, k)` is the logit of query `1024·((t/8)%2) + r` and key `256·(t%8) + k` of that batch: in a computed block by the body's
  arithmetic on the loaded rows (LogitBlock.lean), whose rows are the arrays' rows (BlockReads.lean); in a block
  that starts at or past the key length because no key position of the block is inside the length (signed order
  is monotone on small positions), so the logit is the fill value the body stores.
-/
import proofs.«412665_j43782896615765_3_alg».proof.Proof.Recurrence
import proofs.«412665_j43782896615765_3_alg».proof.Proof.StepAt
import proofs.«412665_j43782896615765_3_alg».proof.Proof.LogitBlock
import proofs.«412665_j43782896615765_3_alg».proof.Proof.BlockReads
import proofs.«412665_j43782896615765_3_alg».proof.Proof.FramesKernelIdeal
import proofs.«412665_j43782896615765_3_alg».proof.Proof.Guards
import proofs.«412665_j43782896615765_3_alg».proof.Proof.Spec
import proofs.«412665_j43782896615765_3_alg».proof.Proof.OnlineSoftmax
import Mathlib.Algebra.BigOperators.Fin

noncomputable section

open Idealize.ShloMosaic Idealize.ShloMosaic.TcCoe Idealize.SL.Sem

namespace Cert.KernelIdeal.LogitsAt

open Cert.KernelIdeal Cert.KernelIdeal.Gen Cert.KernelIdeal.StepAt Idealize.ShloMosaic.ValueIdx

/-- The masked choice between the dot product of two rows and the fill, with the two length tests written out, is the
    logit: the logit's sum over the first 1024 numbers is the sum over the 1024 lanes. -/
private theorem logit_match (Q K : Cert.Attn.SArr.Idx → EReal) (ql kl : Cert.Attn.SLen.Idx → BitVec 32) (b q k : ℕ) :
    (if (BitVec.ofNat 32 q).slt (ql (Cert.Attn.at1 b)) = true ∧ (BitVec.ofNat 32 k).slt (kl (Cert.Attn.at1 b)) = true
      then ((∑ d : Fin 1024, Cert.Attn.re Q b q d.val * Cert.Attn.re K b k d.val : ℝ) : EReal)
      else ((Cert.Attn.fill : ℝ) : EReal))
    = ((Cert.Attn.logit Q K ql kl b q k : ℝ) : EReal) := by
  unfold Cert.Attn.logit Cert.Attn.score
  rw [Finset.sum_range]
  by_cases hP : Cert.Attn.inside ql b q ∧ Cert.Attn.inside kl b k
  · rw [if_pos hP]; exact if_pos hP
  · rw [if_neg hP]; exact if_neg hP

/-- A key position outside the length has the fill as its logit. -/
private theorem logit_fill (Q K : Cert.Attn.SArr.Idx → EReal) (ql kl : Cert.Attn.SLen.Idx → BitVec 32) (b q k : ℕ)
    (h : ¬ (BitVec.ofNat 32 k).slt (kl (Cert.Attn.at1 b)) = true) : Cert.Attn.logit Q K ql kl b q k = Cert.Attn.fill := by
  unfold Cert.Attn.logit
  exact if_neg fun hP => h hP.2

variable (m : (ℓ : Loc nD τ sig) → Buf (Elt Ideal) ℓ) (hO : Ok m) (c : Dev nD)

/-- The block of logits at point `t`, at `(r, k)`. -/
theorem sblk_at (hQ : Cert.Attn.IsReal (m ((c : Thread nD τ).loc main_arg0))) (hK : Cert.Attn.IsReal (m ((c : Thread nD τ).loc main_arg1)))
    (t : Fin (cfgM m hO).N) (r : Fin 1024) (k : Fin 256) :
    Cert.KernelIdeal.Recurrence.sblk m hO c t (rk r k)
      = ((Cert.Attn.logit (m ((c : Thread nD τ).loc main_arg0)) (m ((c : Thread nD τ).loc main_arg1))
            (m ((c : Thread nD τ).loc main_arg3)) (m ((c : Thread nD τ).loc main_arg4))
            (t.val / 16) (1024 * ((t.val / 8) % 2) + r.val) (256 * (t.val % 8) + k.val) : ℝ) : EReal) := by
  have c1 : (grid0.coords t 1).val = (t.val / 8) % 2 := Cert.KernelIdeal.BlockReads.coords1 t
  have c2 : (grid0.coords t 2).val = t.val % 8 := Cert.KernelIdeal.BlockReads.coords2 t
  have hqw : Cert.KernelIdeal.Pieces.qw c (grid0.coords t) (tbl m 0)
      = m ((c : Thread nD τ).loc main_arg3) (Cert.Attn.at1 (t.val / 16)) := Cert.KernelIdeal.BlockReads.qword_at m hO c t
  have hkw : Cert.KernelIdeal.Pieces.kw c (grid0.coords t) (tbl m 1)
      = m ((c : Thread nD τ).loc main_arg4) (Cert.Attn.at1 (t.val / 16)) := Cert.KernelIdeal.BlockReads.kword_at m hO c t
  unfold Cert.KernelIdeal.Recurrence.sblk
  by_cases h1 : cond0_1 (grid0.coords t) (Cert.KernelIdeal.Pieces.kw c (grid0.coords t) (tbl m 1))
  · -- the block starts at or past the key length: no key position of the block is inside the length
    rw [if_pos h1, pay8_at]
    have h2 : ¬cond0_2 (grid0.coords t) (Cert.KernelIdeal.Pieces.kw c (grid0.coords t) (tbl m 1)) :=
      (Cert.KernelIdeal.Frames.cond_excl _ _).mp h1
    have h2' : ¬ (BitVec.ofNat 32 (256 * (t.val % 8))).slt
        (m ((c : Thread nD τ).loc main_arg4) (Cert.Attn.at1 (t.val / 16))) = true := by
      rw [← c2, ← hkw]
      exact fun h => h2 ((Cert.KernelIdeal.Frames.cond2_iff _ _).mpr h)
    have hk' : ¬ (BitVec.ofNat 32 (256 * (t.val % 8) + k.val)).slt
        (m ((c : Thread nD τ).loc main_arg4) (Cert.Attn.at1 (t.val / 16))) = true :=
      Cert.Guards.not_slt_mono (256 * (t.val % 8)) (256 * (t.val % 8) + k.val) (by omega) (by have := k.isLt; omega) _ h2'
    rw [logit_fill (m ((c : Thread nD τ).loc main_arg0)) (m ((c : Thread nD τ).loc main_arg1))
      (m ((c : Thread nD τ).loc main_arg3)) (m ((c : Thread nD τ).loc main_arg4)) _ _ _ hk']
  · -- the computed block: the rows are the arrays' rows, the two words the length vectors' entries
    rw [if_neg h1]
    have hq : ∀ r d : Fin 1024, Cert.KernelIdeal.BlockReads.qblk m hO c t (rd r d)
        = ((Cert.Attn.re (m ((c : Thread nD τ).loc main_arg0)) (t.val / 16) (1024 * ((t.val / 8) % 2) + r.val) d.val : ℝ) : EReal) :=
      fun r d => (Cert.KernelIdeal.BlockReads.qblk_at m hO c t r d).trans (Cert.Attn.re_coe hQ _ _ _)
    have hk : ∀ (k : Fin 256) (d : Fin 1024), Cert.KernelIdeal.BlockReads.kblk m hO c t (kd k d)
        = ((Cert.Attn.re (m ((c : Thread nD τ).loc main_arg1)) (t.val / 16) (256 * (t.val % 8) + k.val) d.val : ℝ) : EReal) :=
      fun k d => (Cert.KernelIdeal.BlockReads.kblk_at m hO c t k d).trans (Cert.Attn.re_coe hK _ _ _)
    refine (pay9_at (grid0.coords t) _ _ _ _ _ _ hq hk r k).trans ?_
    rw [c1, c2, hqw, hkw]
    exact logit_match (m ((c : Thread nD τ).loc main_arg0)) (m ((c : Thread nD τ).loc main_arg1))
      (m ((c : Thread nD τ).loc main_arg3)) (m ((c : Thread nD τ).loc main_arg4)) _ _ _

/-- The block of value rows at point `t`, at `(k, d)`. -/
theorem vblk_at (hV : Cert.Attn.IsReal (m ((c : Thread nD τ).loc main_arg2))) (t : Fin (cfgM m hO).N) (k : Fin 256) (d : Fin 1024) :
    Cert.KernelIdeal.BlockReads.vblk m hO c t (kd k d)
      = ((Cert.Attn.re (m ((c : Thread nD τ).loc main_arg2)) (t.val / 16) (256 * (t.val % 8) + k.val) d.val : ℝ) : EReal) := by
  exact (Cert.KernelIdeal.BlockReads.vblk_at m hO c t k d).trans (Cert.Attn.re_coe hV _ _ _)

end Cert.KernelIdeal.LogitsAt

end
-- ==== Proof.RowStep.lean ====
/-
  One block's update of one row of the body's running values, over real data: the body's arithmetic (StepAt.lean)
  meets the algebra of a softmax accumulated block by block (OnlineSoftmax.lean).

  Row `r` has seen the logits `S K` and value rows `W K ·` of the keys `K < n₀`, and holds a real running maximum `μ`, the
  denominator `Σ_{K<n₀} e^(S K - μ)` and the numerators `Σ_{K<n₀} e^(S K - μ) · W K d`. The body then works on the block of the
  next 256 keys. Afterwards the row holds some real `μ'` and the same sums over `K < n₀ + 256` with `μ'` in place of `μ`.
-/
import proofs.«412665_j43782896615765_3_alg».proof.Proof.StepAt
import proofs.«412665_j43782896615765_3_alg».proof.Proof.OnlineSoftmax

noncomputable section

namespace Cert.KernelIdeal.RowStep

open Idealize.ShloMosaic Idealize.ShloMosaic.ValueIdx Cert.KernelIdeal Cert.KernelIdeal.Gen Cert.KernelIdeal.StepAt Finset

/-- The reset values: the fill value as the running maximum, empty sums as denominator and numerator. -/
theorem row_init (S : ℕ → ℝ) (W : ℕ → ℕ → ℝ) (r : Fin 1024) :
    k0_pay5 (F := Ideal) (row r) = ((Cert.Attn.fill : ℝ) : EReal)
    ∧ k0_pay6 (F := Ideal) (row r) = ((∑ K ∈ range 0, Real.exp (S K - Cert.Attn.fill) : ℝ) : EReal)
    ∧ ∀ d : Fin 1024, k0_pay7 (F := Ideal) (rd r d) = ((∑ K ∈ range 0, Real.exp (S K - Cert.Attn.fill) * W K d.val : ℝ) : EReal) := by
  refine ⟨pay5_at r, ?_, fun d => ?_⟩
  · rw [pay6_at, Finset.range_zero, Finset.sum_empty, EReal.coe_zero]
  · rw [pay7_at, Finset.range_zero, Finset.sum_empty, EReal.coe_zero]

/-- One block's update of row `r`. -/
theorem row_step (S : ℕ → ℝ) (W : ℕ → ℕ → ℝ) (n₀ : ℕ) (s : Vec Ideal S1x1024x256 .f32) (v : Vec Ideal S1x256x1024 .f32)
    (mo lo : Vec Ideal S1x1024x1 .f32) (acco : Vec Ideal S1x1024x1024 .f32) (r : Fin 1024)
    (hs : ∀ k : Fin 256, s (rk r k) = ((S (n₀ + k.val) : ℝ) : EReal))
    (hv : ∀ (k : Fin 256) (d : Fin 1024), v (kd k d) = ((W (n₀ + k.val) d.val : ℝ) : EReal))
    (μ : ℝ) (hm : mo (row r) = ((μ : ℝ) : EReal))
    (hl : lo (row r) = ((∑ K ∈ range n₀, Real.exp (S K - μ) : ℝ) : EReal))
    (hacc : ∀ d : Fin 1024, acco (rd r d) = ((∑ K ∈ range n₀, Real.exp (S K - μ) * W K d.val : ℝ) : EReal)) :
    ∃ μ' : ℝ, k0_pay3 (k0_pay10 s mo) (row r) = ((μ' : ℝ) : EReal)
      ∧ k0_pay1 (k0_pay13 s mo mo lo) (row r) = ((∑ K ∈ range (n₀ + 256), Real.exp (S K - μ') : ℝ) : EReal)
      ∧ ∀ d : Fin 1024, k0_pay2 (k0_pay11 s mo mo) (k0_pay12 s mo) v acco (rd r d)
          = ((∑ K ∈ range (n₀ + 256), Real.exp (S K - μ') * W K d.val : ℝ) : EReal) := by
  -- the new maximum is a real number μ'
  have hfun : (fun k : Fin 256 => s (rk r k)) = fun k : Fin 256 => ((S (n₀ + k.val) : ℝ) : EReal) := funext hs
  obtain ⟨μ', hμ'⟩ := Cert.OnlineSoftmax.max_fold_real (univ : Finset (Fin 256)) μ (fun k => S (n₀ + k.val))
  have hM : k0_pay10 s mo (row r) = ((μ' : ℝ) : EReal) := by
    rw [pay10_at, hm, hfun]
    exact hμ'
  -- the rescaling factor is e^(μ - μ')
  have hA : k0_pay11 s mo mo (row r) = Ideal.exp (((μ : ℝ) : EReal) - ((μ' : ℝ) : EReal)) := by
    rw [pay11_at, hM, hm]
  -- the weights are e^(S (n₀ + k) - μ')
  have hP : ∀ k : Fin 256, k0_pay12 s mo (rk r k) = Ideal.exp (((S (n₀ + k.val) : ℝ) : EReal) - ((μ' : ℝ) : EReal)) :=
    fun k => by rw [pay12_at, hM, hs]
  refine ⟨μ', ?_, ?_, fun d => ?_⟩
  · rw [pay3_at]
    exact hM
  · rw [pay1_at, pay13_at, hA, hl, Finset.sum_congr rfl fun k _ => hP k]
    exact Cert.OnlineSoftmax.step_sum S n₀ μ μ'
  · rw [pay2_at, hA, hacc, Finset.sum_congr rfl fun k _ => show k0_pay12 s mo (rk r k) * v (kd k d)
      = Ideal.exp (((S (n₀ + k.val) : ℝ) : EReal) - ((μ' : ℝ) : EReal)) * ((W (n₀ + k.val) d.val : ℝ) : EReal) by rw [hP, hv]]
    exact Cert.OnlineSoftmax.step_acc S (fun K => W K d.val) n₀ μ μ'

/-- The output of a finished row: numerator over denominator, the softmax-weighted sum with `μ` subtracted. -/
theorem row_out (S : ℕ → ℝ) (W : ℕ → ℕ → ℝ) (N : ℕ) (hN : 0 < N) (l : Vec Ideal S1x1024x1 .f32) (acc : Vec Ideal S1x1024x1024 .f32)
    (r d : Fin 1024) (μ : ℝ)
    (hl : l (row r) = ((∑ K ∈ range N, Real.exp (S K - μ) : ℝ) : EReal))
    (hacc : acc (rd r d) = ((∑ K ∈ range N, Real.exp (S K - μ) * W K d.val : ℝ) : EReal)) :
    k0_pay4 acc l (rd r d)
      = (((∑ K ∈ range N, Real.exp (S K - 0) * W K d.val) / (∑ K ∈ range N, Real.exp (S K - 0)) : ℝ) : EReal) := by
  rw [pay4_at, hl, hacc, Cert.OnlineSoftmax.div_real _ _ (Cert.OnlineSoftmax.sum_exp_pos S N hN μ).ne']
  exact congrArg (fun x : ℝ => (x : EReal)) (Cert.OnlineSoftmax.softmax_shift S (fun K => W K d.val) N hN μ 0)

end Cert.KernelIdeal.RowStep

end
-- ==== Proof.Invariant.lean ====
/-
  The invariant of the kernel's grid, by induction on the grid point, and the output block it leads to.

  After grid point `n` — batch `n/16`, block of query rows `(n/8)%2`, blocks of keys `0 … n%8` done — row `r` of the running
  buffers holds a real maximum `μ`, the denominator `Σ_{K < 256·(n%8+1)} e^(logit K - μ)` and the numerators
  `Σ_{K < 256·(n%8+1)} e^(logit K - μ) · V K d`, the logits those of query `1024·((n/8)%2) + r` of the batch. At a first block the
  sums start from the reset values; at any other block from the point before, which belongs to the same batch and the
  same query rows. After the eighth block the sums run over all 2048 keys, and the output block is their quotient:
  the attention of Spec.lean.
-/
import proofs.«412665_j43782896615765_3_alg».proof.Proof.Recurrence
import proofs.«412665_j43782896615765_3_alg».proof.Proof.LogitsAt
import proofs.«412665_j43782896615765_3_alg».proof.Proof.RowStep
import proofs.«412665_j43782896615765_3_alg».proof.Proof.Spec

noncomputable section

open Idealize.ShloMosaic Idealize.ShloMosaic.TcCoe Idealize.SL.Sem

namespace Cert.KernelIdeal.Invariant

open Cert.KernelIdeal Cert.KernelIdeal.Gen Cert.KernelIdeal.StepAt Cert.KernelIdeal.Recurrence Idealize.ShloMosaic.ValueIdx Finset

variable (m : (ℓ : Loc nD τ sig) → Buf (Elt Ideal) ℓ) (hO : Ok m) (hH : Hyps m hO) (c : Dev nD)

/-- The logits of row `r` of the block of query rows of point `n`, by key position. -/
def S (n : ℕ) (r : Fin 1024) : ℕ → ℝ := fun K =>
  Cert.Attn.logit (m ((c : Thread nD τ).loc main_arg0)) (m ((c : Thread nD τ).loc main_arg1)) (m ((c : Thread nD τ).loc main_arg3))
    (m ((c : Thread nD τ).loc main_arg4)) (n / 16) (1024 * ((n / 8) % 2) + r.val) K

/-- The value rows of the batch of point `n`, by key position and column. -/
def W (n : ℕ) : ℕ → ℕ → ℝ := fun K d => Cert.Attn.re (m ((c : Thread nD τ).loc main_arg2)) (n / 16) K d

/-- A point that is not a first block has the batch and the query rows of the point before. -/
theorem S_prev (n : ℕ) (h0 : ¬n % 8 = 0) (r : Fin 1024) : S m c (n - 1) r = S m c n r := by
  have e1 : (n - 1) / 16 = n / 16 := by omega
  have e2 : ((n - 1) / 8) % 2 = (n / 8) % 2 := by omega
  unfold S
  rw [e1, e2]

theorem W_prev (n : ℕ) (h0 : ¬n % 8 = 0) : W m c (n - 1) = W m c n := by
  have e1 : (n - 1) / 16 = n / 16 := by omega
  unfold W
  rw [e1]

/-- The statement of the invariant at a point. -/
def Holds (n : ℕ) (hn : n < (cfgM m hO).N) (r : Fin 1024) : Prop :=
  ∃ μ : ℝ, mAt m hO hH c n hn (row r) = ((μ : ℝ) : EReal)
    ∧ lAt m hO hH c n hn (row r) = ((∑ K ∈ range (256 * (n % 8 + 1)), Real.exp (S m c n r K - μ) : ℝ) : EReal)
    ∧ ∀ d : Fin 1024, accAt m hO hH c n hn (rd r d)
        = ((∑ K ∈ range (256 * (n % 8 + 1)), Real.exp (S m c n r K - μ) * W m c n K d.val : ℝ) : EReal)

/-- The result of Spec.lean at an index built from in-range natural numbers. -/
theorem result_at3 (Q K V : Cert.Attn.SArr.Idx → EReal) (ql kl : Cert.Attn.SLen.Idx → BitVec 32) (b q d : ℕ)
    (hb : b < 16) (hq : q < 2048) (hd : d < 1024) :
    Cert.Attn.result Q K V ql kl (Cert.Attn.at3 b q d) = ((Cert.Attn.attn Q K V ql kl 0 b q d : ℝ) : EReal) := by
  have a0 : ((Cert.Attn.at3 b q d) 0).val = b := Nat.mod_eq_of_lt hb
  have a1 : ((Cert.Attn.at3 b q d) 1).val = q := Nat.mod_eq_of_lt hq
  have a2 : ((Cert.Attn.at3 b q d) 2).val = d := Nat.mod_eq_of_lt hd
  unfold Cert.Attn.result
  rw [a0, a1, a2]

variable (hQ : Cert.Attn.IsReal (m ((c : Thread nD τ).loc main_arg0))) (hK : Cert.Attn.IsReal (m ((c : Thread nD τ).loc main_arg1)))
  (hV : Cert.Attn.IsReal (m ((c : Thread nD τ).loc main_arg2)))
include hQ hK hV

/-- At a first block: one update of the reset values. -/
theorem holds_first (t : Fin (cfgM m hO).N) (h0 : t.val % 8 = 0) (r : Fin 1024) : Holds m hO hH c t.val t.isLt r := by
  obtain ⟨em, el, eacc⟩ := first_block m hO hH c t h0
  obtain ⟨i5, i6, i7⟩ := Cert.KernelIdeal.RowStep.row_init (S m c t.val r) (W m c t.val) r
  have e0 : 256 * (t.val % 8) = 0 := by omega
  have e1 : 256 * (t.val % 8) + 256 = 256 * (t.val % 8 + 1) := by omega
  obtain ⟨μ', h1, h2, h3⟩ := Cert.KernelIdeal.RowStep.row_step (S m c t.val r) (W m c t.val) (256 * (t.val % 8)) (sblk m hO c t)
    (Cert.KernelIdeal.BlockReads.vblk m hO c t) (k0_pay5 (F := Ideal)) (k0_pay6 (F := Ideal)) (k0_pay7 (F := Ideal)) r
    (fun k => Cert.KernelIdeal.LogitsAt.sblk_at m hO c hQ hK t r k) (fun k d => Cert.KernelIdeal.LogitsAt.vblk_at m hO c hV t k d)
    Cert.Attn.fill i5 (by rw [e0]; exact i6) (fun d => by rw [e0]; exact i7 d)
  rw [e1] at h2 h3
  exact ⟨μ', (congrFun em (row r)).trans h1, (congrFun el (row r)).trans h2, fun d => (congrFun eacc (rd r d)).trans (h3 d)⟩

/-- At any other block: one update of what the point before left. -/
theorem holds_next (t : Fin (cfgM m hO).N) (h0 : ¬t.val % 8 = 0) (r : Fin 1024)
    (ih : Holds m hO hH c (t.val - 1) (prev_lt m hO t) r) : Holds m hO hH c t.val t.isLt r := by
  obtain ⟨em, el, eacc⟩ := next_block m hO hH c t h0
  obtain ⟨μ, pm, pl, pacc⟩ := ih
  have e0 : 256 * ((t.val - 1) % 8 + 1) = 256 * (t.val % 8) := by omega
  have e1 : 256 * (t.val % 8) + 256 = 256 * (t.val % 8 + 1) := by omega
  rw [S_prev m c t.val h0 r, e0] at pl
  have pacc' : ∀ d : Fin 1024, accAt m hO hH c (t.val - 1) (prev_lt m hO t) (rd r d)
      = ((∑ K ∈ range (256 * (t.val % 8)), Real.exp (S m c t.val r K - μ) * W m c t.val K d.val : ℝ) : EReal) := fun d => by
    have := pacc d
    rw [S_prev m c t.val h0 r, W_prev m c t.val h0, e0] at this
    exact this
  obtain ⟨μ', h1, h2, h3⟩ := Cert.KernelIdeal.RowStep.row_step (S m c t.val r) (W m c t.val) (256 * (t.val % 8)) (sblk m hO c t)
    (Cert.KernelIdeal.BlockReads.vblk m hO c t) (mAt m hO hH c (t.val - 1) (prev_lt m hO t)) (lAt m hO hH c (t.val - 1) (prev_lt m hO t))
    (accAt m hO hH c (t.val - 1) (prev_lt m hO t)) r
    (fun k => Cert.KernelIdeal.LogitsAt.sblk_at m hO c hQ hK t r k) (fun k d => Cert.KernelIdeal.LogitsAt.vblk_at m hO c hV t k d)
    μ pm pl pacc'
  rw [e1] at h2 h3
  exact ⟨μ', (congrFun em (row r)).trans h1, (congrFun el (row r)).trans h2, fun d => (congrFun eacc (rd r d)).trans (h3 d)⟩

/-- THE INVARIANT after point `n`, row by row. -/
theorem inv : ∀ (n : ℕ) (hn : n < (cfgM m hO).N) (r : Fin 1024), Holds m hO hH c n hn r := by
  intro n
  induction n with
  | zero => intro hn r; exact holds_first m hO hH c hQ hK hV ⟨0, hn⟩ rfl r
  | succ k ih =>
    intro hn r
    by_cases h0 : (k + 1) % 8 = 0
    · exact holds_first m hO hH c hQ hK hV ⟨k + 1, hn⟩ h0 r
    · exact holds_next m hO hH c hQ hK hV ⟨k + 1, hn⟩ h0 r (ih (Nat.lt_of_succ_lt hn) r)

/-- The output block a last point leaves is the attention of Spec.lean at the block's rows. -/
theorem out_at (t : Fin (cfgM m hO).N) (h7 : t.val % 8 = 7) (r d : Fin 1024) :
    oAt m hO hH c t.val t.isLt (rd r d)
      = Cert.Attn.result (m ((c : Thread nD τ).loc main_arg0)) (m ((c : Thread nD τ).loc main_arg1)) (m ((c : Thread nD τ).loc main_arg2))
          (m ((c : Thread nD τ).loc main_arg3)) (m ((c : Thread nD τ).loc main_arg4))
          (Cert.Attn.at3 (t.val / 16) (1024 * ((t.val / 8) % 2) + r.val) d.val) := by
  have ht : t.val < 256 := lt_of_lt_of_eq t.isLt N_0
  have eo := last_block_out m hO hH c t h7
  obtain ⟨μ, hm, hl, hacc⟩ := inv m hO hH c hQ hK hV t.val t.isLt r
  have eN : 256 * (t.val % 8 + 1) = 2048 := by omega
  rw [eN] at hl
  have hacc' := hacc d
  rw [eN] at hacc'
  have ho := Cert.KernelIdeal.RowStep.row_out (S m c t.val r) (W m c t.val) 2048 (by norm_num) (lAt m hO hH c t.val t.isLt)
    (accAt m hO hH c t.val t.isLt) r d μ hl hacc'
  refine (congrFun eo (rd r d)).trans (ho.trans ?_)
  rw [result_at3 _ _ _ _ _ _ _ _ (by omega) (by have := r.isLt; omega) d.isLt]
  rfl

end Cert.KernelIdeal.Invariant

end
-- ==== Proof.KernelValue.lean ====
/-
  The kernel's result array. Each of the 32 pairs (batch, block of query rows) has one grid point that writes its
  output block back — the last of its eight blocks of keys — and the block written there is the attention of
  Spec.lean at the block's rows (Invariant.lean). The 32 blocks tile the result array, so the array ends holding the
  attention at every index, and the run of the program ends with that array and unchanged arguments.
-/
import proofs.«412665_j43782896615765_3_alg».proof.Proof.Gen.KernelIdeal.Frame
import proofs.«412665_j43782896615765_3_alg».proof.Proof.Invariant
import proofs.«412665_j43782896615765_3_alg».proof.Proof.FramesKernelIdeal
import Idealize.ShloMosaic.Lib.Pipeline.Value

noncomputable section

open Idealize.ShloMosaic Idealize.ShloMosaic.TcCoe Idealize.SL.Sem

namespace Cert.KernelIdeal.KernelValue

open Cert.KernelIdeal Cert.KernelIdeal.Gen Idealize.ShloMosaic.ValueIdx

variable (m : (ℓ : Loc nD τ sig) → Buf (Elt Ideal) ℓ) (ρ : Dev nD → PrngReg) (hO : Ok m) (hH : Hyps m hO)

/-- The attention of the argument arrays of core `c`. -/
private abbrev G (c : Dev nD) : Cert.Attn.SArr.Idx → EReal :=
  Cert.Attn.result (m ((c : Thread nD τ).loc main_arg0)) (m ((c : Thread nD τ).loc main_arg1)) (m ((c : Thread nD τ).loc main_arg2))
    (m ((c : Thread nD τ).loc main_arg3)) (m ((c : Thread nD τ).loc main_arg4))

/-- The output's index map over the grid: point `t` has batch `t / 16`, block of query rows `(t / 8) % 2`, and the
    one block of columns. -/
private theorem idx3 : ∀ t : Fin grid0.N, cc0_transform_3 (grid0.coords t) 0 = t.val / 16
    ∧ cc0_transform_3 (grid0.coords t) 1 = (t.val / 8) % 2 ∧ cc0_transform_3 (grid0.coords t) 2 = 0 := by
  decide +kernel

/-- What a last point writes back is its block of the attention: entry `(0, r, d)` of the block sits at
    `(t / 16, 1024 · ((t / 8) % 2) + r, d)` of the array. -/
private theorem flushed_eq (c : Dev nD) (hQ : Cert.Attn.IsReal (m ((c : Thread nD τ).loc main_arg0)))
    (hK : Cert.Attn.IsReal (m ((c : Thread nD τ).loc main_arg1))) (hV : Cert.Attn.IsReal (m ((c : Thread nD τ).loc main_arg2)))
    (t : Fin (cfgM m hO).N) (hf : ((cfgM m hO).win 3).flush t = true) :
    (dats m hO hH 0 c).flushed 3 t = (((cfgM m hO).win 3).blk t).view.read (Elt Ideal) (G m c) := by
  have h7 : t.val % 8 = 7 := (flush0_3 (adm m hO) t).mp hf
  have hout : ∀ r d : Fin 1024, (outsAt0 m hO hH c t.val t.isLt).1 (ix3 (0 : Fin 1) r d)
      = G m c (Cert.Attn.at3 (t.val / 16) (1024 * ((t.val / 8) % 2) + r.val) d.val) :=
    fun r d => Cert.KernelIdeal.Invariant.out_at m hO hH c hQ hK hV t h7 r d
  show ((cfgM m hO).win 3).cut (grid0.coords t) ((dats m hO hH 0 c).after 3 t) = _
  rw [after0_3]
  refine funext fun (y : S1x1024x1024.Idx) => ?_
  show (outsAt0 m hO hH c t.val t.isLt).1 y = G m c ((((cfgM m hO).win 3).blk t).view.emb y)
  -- the block has one batch row: its index is `(0, r, d)`
  obtain ⟨r, d, rfl⟩ : ∃ r d, y = ix3 (0 : Fin 1) r d := ⟨y 1, y 2, (eq_ix3 (n0 := 1) (n1 := 1024) (n2 := 1024) y).trans
      (congrArg (fun a : Fin 1 => ix3 a (y 1) (y 2)) (Subsingleton.elim (α := Fin 1) (y 0) 0))⟩
  rw [hout r d]
  congr 1
  obtain ⟨e0, e1, e2⟩ := idx3 t
  have hN : t.val < 256 := lt_of_lt_of_eq t.isLt (show (cfgM m hO).N = 256 from N_0)
  funext a; apply Fin.ext
  match a with
  | ⟨0, _⟩ =>
    show (t.val / 16) % 16 = cc0_transform_3 (grid0.coords t) 0 * 1 + 1 * (0 : Fin 1).val
    rw [e0]; show _ = t.val / 16 * 1 + 1 * 0; omega
  | ⟨1, _⟩ =>
    show (1024 * ((t.val / 8) % 2) + r.val) % 2048 = cc0_transform_3 (grid0.coords t) 1 * 1024 + 1 * r.val
    rw [e1]; have := r.isLt; omega
  | ⟨2, _⟩ =>
    show d.val % 1024 = cc0_transform_3 (grid0.coords t) 2 * 1024 + 1 * d.val
    rw [e2]; have := d.isLt; omega

/-- The result array after the run is the attention of the argument arrays. -/
theorem final (c : Dev nD) (hQ : Cert.Attn.IsReal (m ((c : Thread nD τ).loc main_arg0))) (hK : Cert.Attn.IsReal (m ((c : Thread nD τ).loc main_arg1)))
    (hV : Cert.Attn.IsReal (m ((c : Thread nD τ).loc main_arg2))) :
    (dats m hO hH 0 c).arrAt 3 (cfgM m hO).N
      = Cert.Attn.result (m ((c : Thread nD τ).loc main_arg0)) (m ((c : Thread nD τ).loc main_arg1)) (m ((c : Thread nD τ).loc main_arg2))
          (m ((c : Thread nD τ).loc main_arg3)) (m ((c : Thread nD τ).loc main_arg4)) :=
  (dats m hO hH 0 c).arrAt_eq_of_cover 3 (G m c) (fun t hf => flushed_eq m hO hH c hQ hK hV t hf) fun (i : S16x2048x1024.Idx) => by
    -- index `i` lies in the block written back at the last point of its batch and block of query rows
    have hi0 : (i 0).val < 16 := (i 0).isLt
    have hi1 : (i 1).val < 2048 := (i 1).isLt
    have hi2 : (i 2).val < 1024 := (i 2).isLt
    obtain ⟨n, hn⟩ : ∃ n, n = 16 * (i 0).val + 8 * ((i 1).val / 1024) + 7 := ⟨_, rfl⟩
    have hlt : n < (cfgM m hO).N := by rw [show (cfgM m hO).N = 256 from N_0]; omega
    obtain ⟨e0, e1, e2⟩ := idx3 ⟨n, hlt⟩
    have e0' : cc0_transform_3 (grid0.coords ⟨n, hlt⟩) 0 = n / 16 := e0
    have e1' : cc0_transform_3 (grid0.coords ⟨n, hlt⟩) 1 = (n / 8) % 2 := e1
    refine ⟨⟨n, hlt⟩, (flush0_3 (adm m hO) _).mpr (by show n % 8 = 7; omega), ?_⟩
    -- membership in a block of the whole array is membership in the block's rectangle, axis by axis
    have key : ∀ R : Rect main_v0.ty.shape, i ∈ R.set → i ∈ ((View.whole main_v0).slice R).set :=
      fun R h => (View.set_slice_whole main_v0 R).symm ▸ h
    refine key (((cfgM m hO).win 3).rect ⟨n, hlt⟩) (Rect.mem_set_unit.mpr fun (a : Fin 3) => ?_)
    match a with
    | ⟨0, _⟩ =>
      show cc0_transform_3 (grid0.coords ⟨n, hlt⟩) 0 * 1 ≤ (i 0).val ∧ (i 0).val < cc0_transform_3 (grid0.coords ⟨n, hlt⟩) 0 * 1 + 1
      rw [e0']; omega
    | ⟨1, _⟩ =>
      show cc0_transform_3 (grid0.coords ⟨n, hlt⟩) 1 * 1024 ≤ (i 1).val ∧ (i 1).val < cc0_transform_3 (grid0.coords ⟨n, hlt⟩) 1 * 1024 + 1024
      rw [e1']; omega
    | ⟨2, _⟩ =>
      show cc0_transform_3 (grid0.coords ⟨n, hlt⟩) 2 * 1024 ≤ (i 2).val ∧ (i 2).val < cc0_transform_3 (grid0.coords ⟨n, hlt⟩) 2 * 1024 + 1024
      rw [e2]; omega

include hO hH in
/-- The run of the idealized kernel program: the result array at the attention, the five arguments unchanged. -/
theorem run (hQ : ∀ c : Dev nD, Cert.Attn.IsReal (m ((c : Thread nD τ).loc main_arg0))) (hK : ∀ c : Dev nD, Cert.Attn.IsReal (m ((c : Thread nD τ).loc main_arg1)))
    (hV : ∀ c : Dev nD, Cert.Attn.IsReal (m ((c : Thread nD τ).loc main_arg2))) :
    θ_run defs (onTc (τ := τ) (main (F := Ideal))) ⟨m, fun _ => 0, ρ⟩ fun r => ∀ c : Dev nD,
      r.2.mem ((c.tc : Thread nD τ).loc main_v0)
          = Cert.Attn.result (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  -- the result array is window 3's after the run; a staged argument is never written back; a table is no window's
  (θ_run defs _ _).mono (fun r h c => ⟨((h c).1 3).trans (final m hO hH c (hQ c) (hK c) (hV c)),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO hH)

end Cert.KernelIdeal.KernelValue

end
-- ==== Proof.RefValue.lean ====
/-
  The reference's result, element by element, is the softmax attention of Spec.lean.

  The reference forms all 16 x 2048 x 2048 logits at once: the product of the two validity masks (each a
  comparison of an iota with a length, converted to 0.0 / 1.0) times the score, plus one minus that product times
  the fill value; over real scores this is the score where both positions are inside their lengths and the fill value
  elsewhere. It then subtracts the row's maximum (a real number, since a row has 2048 real logits), exponentiates,
  divides by the row's sum and contracts with V over the keys: the softmax-weighted sum with the maximum as the
  subtracted constant, which is the same as with any other constant.
-/
import proofs.«412665_j43782896615765_3_alg».proof.Proof.Gen.ReferenceIdeal.Run
import proofs.«412665_j43782896615765_3_alg».proof.Proof.Gen.ReferenceIdeal.Read
import proofs.«412665_j43782896615765_3_alg».proof.Proof.Spec
import proofs.«412665_j43782896615765_3_alg».proof.Proof.OnlineSoftmax
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Finset

/-! ## The constants of the program as extended reals -/

/-- The pattern of 1.0. -/
private theorem one_bits : Ideal.ofBits .f32 0x3F800000#32 = ((1 : ℝ) : EReal) := by
  rw [Ideal.ofBits_one_f32, EReal.coe_one]

/-- The pattern of the fill value: sign 1, exponent 159, significand 0, that is -2^32. -/
private theorem fill_bits : Ideal.ofBits .f32 0xCF800000#32 = ((Cert.Attn.fill : ℝ) : EReal) := by
  unfold Cert.Attn.fill
  simp [Ideal.ofBits, Ideal.ieee, -EReal.coe_mul, -EReal.coe_neg]; norm_num

/-- The pattern of -∞ is the bottom of the extended reals. -/
private theorem bot_bits : Ideal.ofBits .f32 0xFF800000#32 = (⊥ : EReal) := by
  simp [Ideal.ofBits, Ideal.ieee]

/-- A one-bit word read as an unsigned integer is 1 or 0. -/
private theorem uitofp_ofBool (t : Bool) :
    FloatOps.uitofp (F := Ideal) .f32 (BitVec.ofBool t) = if t = true then ((1 : ℝ) : EReal) else ((0 : ℝ) : EReal) := by
  cases t <;> simp [FloatOps.uitofp]

/-! ## The two masks -/

/-- The query mask at (b, q) is 1 when q is inside batch b's query length and 0 otherwise. -/
private theorem mask_q (x3 : (⟨S16, .i32⟩ : BufTy).Contents (Elt Ideal)) (b : Fin 16) (q : Fin 2048) :
    val_main_v7 (F := Ideal) x3 (ix2 b q)
      = if Cert.Attn.inside x3 b.val q.val then ((1 : ℝ) : EReal) else ((0 : ℝ) : EReal) := by
  rw [val_main_v7_apply, val_main_v6_apply, val_main_v4_apply, val_main_v3_apply, val_main_v1_apply,
    val_main_v5_apply, val_main_v2_apply]
  have e : idx_main_v2 (idx_main_v5 (ix2 b q)) = Cert.Attn.at1 b.val := by
    rw [Cert.Attn.at1_fin]; funext a; match a with | ⟨0, _⟩ => rfl
  rw [e]
  exact uitofp_ofBool _

/-- The key mask at (b, k) is 1 when k is inside batch b's key length and 0 otherwise. -/
private theorem mask_k (x4 : (⟨S16, .i32⟩ : BufTy).Contents (Elt Ideal)) (b : Fin 16) (k : Fin 2048) :
    val_main_v14 (F := Ideal) x4 (ix2 b k)
      = if Cert.Attn.inside x4 b.val k.val then ((1 : ℝ) : EReal) else ((0 : ℝ) : EReal) := by
  rw [val_main_v14_apply, val_main_v13_apply, val_main_v11_apply, val_main_v10_apply, val_main_v8_apply,
    val_main_v12_apply, val_main_v9_apply]
  have e : idx_main_v9 (idx_main_v12 (ix2 b k)) = Cert.Attn.at1 b.val := by
    rw [Cert.Attn.at1_fin]; funext a; match a with | ⟨0, _⟩ => rfl
  rw [e]
  exact uitofp_ofBool _

/-! ## The logits -/

/-- The first contraction at (b, q, k) is the score of Spec.lean: the sum over the 1024 features of real products. -/
private theorem score_eq (x0 x1 : (⟨S16x2048x1024, .f32⟩ : BufTy).Contents (Elt Ideal))
    (h0 : Cert.Attn.IsReal x0) (h1 : Cert.Attn.IsReal x1) (b : Fin 16) (q k : Fin 2048) :
    val_main_v0 (F := Ideal) x0 x1 (ix3 b q k) = ((Cert.Attn.score x0 x1 b.val q.val k.val : ℝ) : EReal) := by
  rw [val_main_v0_apply, Cert.Attn.score, Finset.sum_range, Cert.OnlineSoftmax.coe_sum]
  refine Finset.sum_congr rfl fun d _ => ?_
  have el : lidx_main_v0 (ix3 b q k) d = Cert.Attn.at3 b.val q.val d.val := by
    rw [Cert.Attn.at3_fin]; funext a; match a with | ⟨0, _⟩ => rfl | ⟨1, _⟩ => rfl | ⟨2, _⟩ => rfl
  have er : ridx_main_v0 (ix3 b q k) d = Cert.Attn.at3 b.val k.val d.val := by
    rw [Cert.Attn.at3_fin]; funext a; match a with | ⟨0, _⟩ => rfl | ⟨1, _⟩ => rfl | ⟨2, _⟩ => rfl
  rw [el, er, Cert.Attn.re_coe h0, Cert.Attn.re_coe h1, ← EReal.coe_mul]

/-- The masked logit at (b, q, k): with masks mq, mk in {0, 1} the program forms
    (mq * mk) * score + (1 - mq * mk) * fill, which is the score when both are 1 and the fill value otherwise. -/
private theorem logit_eq (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q k : Fin 2048) :
    val_main_v25 (F := Ideal) x0 x1 x3 x4 (ix3 b q k)
      = ((Cert.Attn.logit x0 x1 x3 x4 b.val q.val k.val : ℝ) : EReal) := by
  have eq : idx_main_v15 (idx_main_v17 (ix3 b q k)) = ix2 b q := by
    funext a; match a with | ⟨0, _⟩ => rfl | ⟨1, _⟩ => rfl
  have ek : idx_main_v16 (idx_main_v18 (ix3 b q k)) = ix2 b k := by
    funext a; match a with | ⟨0, _⟩ => rfl | ⟨1, _⟩ => rfl
  rw [val_main_v25_apply, val_main_v20_apply, val_main_v24_apply, val_main_v22_apply, val_main_v19_apply,
    val_main_v17_apply, val_main_v15_apply, val_main_v18_apply, val_main_v16_apply, val_main_v21_apply,
    val_main_cst_apply, val_main_v23_apply, val_main_cst_0_apply, score_eq x0 x1 h0 h1, eq, ek, mask_q, mask_k]
  simp only [Ideal.ofBits_def, Ideal.addf_def, Ideal.mulf_def, Ideal.subf_def, one_bits, fill_bits]
  unfold Cert.Attn.logit
  by_cases hq : Cert.Attn.inside x3 b.val q.val <;> by_cases hk : Cert.Attn.inside x4 b.val k.val
  · rw [if_pos hq, if_pos hk, if_pos ⟨hq, hk⟩]
    simp only [← EReal.coe_mul, ← EReal.coe_sub, ← EReal.coe_add]
    exact congrArg _ (by ring)
  · rw [if_pos hq, if_neg hk, if_neg (fun h => hk h.2)]
    simp only [← EReal.coe_mul, ← EReal.coe_sub, ← EReal.coe_add]
    exact congrArg _ (by ring)
  · rw [if_neg hq, if_pos hk, if_neg (fun h => hq h.1)]
    simp only [← EReal.coe_mul, ← EReal.coe_sub, ← EReal.coe_add]
    exact congrArg _ (by ring)
  · rw [if_neg hq, if_neg hk, if_neg (fun h => hq h.1)]
    simp only [← EReal.coe_mul, ← EReal.coe_sub, ← EReal.coe_add]
    exact congrArg _ (by ring)

/-! ## The row maximum -/

/-- The reduced index (b, q) with coordinate k put back on the dropped key axis is (b, q, k). -/
private theorem lift_ix3 (h : S16x2048x2048.Reduces [2] S16x2048) (b : Fin 16) (q : Fin 2048) (k : Fin 2048) :
    h.lift (ix2 b q) k = ix3 b q k := by
  funext c; apply Fin.ext
  match c with | ⟨0, _⟩ => rfl | ⟨1, _⟩ => rfl | ⟨2, _⟩ => rfl

/-- The reduction with maximum over the key axis, at (b, q), is the maximum of the row's 2048 logits folded from -∞. -/
private theorem rowfold_eq (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q : Fin 2048) :
    val_main_v26 (F := Ideal) x0 x1 x3 x4 (ix2 b q)
      = (Finset.univ : Finset (Fin 2048)).fold max (⊥ : EReal)
          (fun k => ((Cert.Attn.logit x0 x1 x3 x4 b.val q.val k.val : ℝ) : EReal)) := by
  have hR : S16x2048x2048.Reduces [2] S16x2048 := by decide
  have hf : (val_main_v25 (F := Ideal) x0 x1 x3 x4 ∘ hR.lift (ix2 b q))
      = fun k : Fin 2048 => ((Cert.Attn.logit x0 x1 x3 x4 b.val q.val k.val : ℝ) : EReal) :=
    funext fun (k : Fin 2048) =>
      (congrArg (val_main_v25 (F := Ideal) x0 x1 x3 x4) (lift_ix3 hR b q k)).trans
        (logit_eq x0 x1 x3 x4 h0 h1 b q k)
  unfold val_main_v26
  rw [Host.reduce_eq_fold_single FloatOps.maximumf _ _ _ hR _, hf, val_main_cst_1_apply, Ideal.ofBits_def, bot_bits]
  rfl

/-- The row maximum at (b, q) is a real number: the row has 2048 real logits. -/
private theorem rowmax_real (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q : Fin 2048) :
    ∃ M : ℝ, val_main_v28 (F := Ideal) x0 x1 x3 x4 (ix2 b q) = (M : EReal) := by
  obtain ⟨M, hM⟩ := Cert.OnlineSoftmax.fold_max_real (Finset.univ : Finset (Fin 2048)) Finset.univ_nonempty
    (fun k => Cert.Attn.logit x0 x1 x3 x4 b.val q.val k.val)
  refine ⟨M, ?_⟩
  rw [val_main_v28_apply, val_main_v27_apply, val_main_cst_2_apply, rowfold_eq x0 x1 x3 x4 h0 h1, hM,
    Ideal.maximumf_def, Ideal.ofBits_def, bot_bits, max_bot_left]

/-! ## The exponentials, the row sum, the quotient and the last contraction -/

/-- The exponential at (b, q, k) of the logit minus the row's maximum M. -/
private theorem exp_eq (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q k : Fin 2048) (M : ℝ)
    (hM : val_main_v28 (F := Ideal) x0 x1 x3 x4 (ix2 b q) = (M : EReal)) :
    val_main_v32 (F := Ideal) x0 x1 x3 x4 (ix3 b q k)
      = ((Real.exp (Cert.Attn.logit x0 x1 x3 x4 b.val q.val k.val - M) : ℝ) : EReal) := by
  have e : idx_main_v29 (idx_main_v30 (ix3 b q k)) = ix2 b q := by
    funext a; match a with | ⟨0, _⟩ => rfl | ⟨1, _⟩ => rfl
  rw [val_main_v32_apply, val_main_v31_apply, val_main_v30_apply, val_main_v29_apply, e, hM,
    logit_eq x0 x1 x3 x4 h0 h1, Ideal.hostUnary_exp_def, Ideal.subf_def, ← EReal.coe_sub, Ideal.exp_coe]

/-- The row sum at (b, q): zero plus the 2048 exponentials. -/
private theorem rowsum_eq (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q : Fin 2048) (M : ℝ)
    (hM : val_main_v28 (F := Ideal) x0 x1 x3 x4 (ix2 b q) = (M : EReal)) :
    val_main_v33 (F := Ideal) x0 x1 x3 x4 (ix2 b q)
      = ((∑ k ∈ range 2048, Real.exp (Cert.Attn.logit x0 x1 x3 x4 b.val q.val k - M) : ℝ) : EReal) := by
  rw [val_main_v33_apply, val_main_cst_3_apply, Ideal.ofBits_def, Ideal.ofBits_zero_f32, zero_add, Finset.sum_range,
    Cert.OnlineSoftmax.coe_sum]
  refine Finset.sum_congr rfl fun k _ => ?_
  have e : idx_main_v33 (ix2 b q) k = ix3 b q k := by
    funext a; match a with | ⟨0, _⟩ => rfl | ⟨1, _⟩ => rfl | ⟨2, _⟩ => rfl
  rw [e, exp_eq x0 x1 x3 x4 h0 h1 b q k M hM]

/-- The normalised weight at (b, q, k): the exponential over the row sum, a real quotient since the sum is positive. -/
private theorem quot_eq (x0 x1 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (b : Fin 16) (q k : Fin 2048) (M : ℝ)
    (hM : val_main_v28 (F := Ideal) x0 x1 x3 x4 (ix2 b q) = (M : EReal)) :
    val_main_v36 (F := Ideal) x0 x1 x3 x4 (ix3 b q k)
      = ((Real.exp (Cert.Attn.logit x0 x1 x3 x4 b.val q.val k.val - M)
          / (∑ j ∈ range 2048, Real.exp (Cert.Attn.logit x0 x1 x3 x4 b.val q.val j - M)) : ℝ) : EReal) := by
  have e : idx_main_v34 (idx_main_v35 (ix3 b q k)) = ix2 b q := by
    funext a; match a with | ⟨0, _⟩ => rfl | ⟨1, _⟩ => rfl
  rw [val_main_v36_apply, val_main_v35_apply, val_main_v34_apply, e, exp_eq x0 x1 x3 x4 h0 h1 b q k M hM,
    rowsum_eq x0 x1 x3 x4 h0 h1 b q M hM, Ideal.hostDivf_def]
  exact Cert.OnlineSoftmax.div_real _ _
    (Cert.OnlineSoftmax.sum_exp_pos (fun j => Cert.Attn.logit x0 x1 x3 x4 b.val q.val j) 2048 (by norm_num) M).ne'

/-- The last contraction at (b, q, d) is the attention of Spec.lean with the constant 0: the weights are normalised
    with the row's maximum subtracted, and a softmax-weighted sum does not depend on the subtracted constant. -/
private theorem result_at (x0 x1 x2 : (⟨S16x2048x1024, .f32⟩ : BufTy).Contents (Elt Ideal))
    (x3 x4 : (⟨S16, .i32⟩ : BufTy).Contents (Elt Ideal))
    (h0 : Cert.Attn.IsReal x0) (h1 : Cert.Attn.IsReal x1) (h2 : Cert.Attn.IsReal x2)
    (b : Fin 16) (q : Fin 2048) (d : Fin 1024) :
    val_main_v37 (F := Ideal) x0 x1 x2 x3 x4 (ix3 b q d)
      = ((Cert.Attn.attn x0 x1 x2 x3 x4 0 b.val q.val d.val : ℝ) : EReal) := by
  obtain ⟨M, hM⟩ := rowmax_real x0 x1 x3 x4 h0 h1 b q
  have hterm : ∀ k : Fin 2048,
      val_main_v36 (F := Ideal) x0 x1 x3 x4 (lidx_main_v37 (ix3 b q d) k) * x2 (ridx_main_v37 (ix3 b q d) k)
        = ((Real.exp (Cert.Attn.logit x0 x1 x3 x4 b.val q.val k.val - M)
            / (∑ j ∈ range 2048, Real.exp (Cert.Attn.logit x0 x1 x3 x4 b.val q.val j - M))
            * Cert.Attn.re x2 b.val k.val d.val : ℝ) : EReal) := fun k => by
    have el : lidx_main_v37 (ix3 b q d) k = ix3 b q k := by
      funext a; match a with | ⟨0, _⟩ => rfl | ⟨1, _⟩ => rfl | ⟨2, _⟩ => rfl
    have er : ridx_main_v37 (ix3 b q d) k = Cert.Attn.at3 b.val k.val d.val := by
      rw [Cert.Attn.at3_fin]; funext a; match a with | ⟨0, _⟩ => rfl | ⟨1, _⟩ => rfl | ⟨2, _⟩ => rfl
    rw [el, er, quot_eq x0 x1 x3 x4 h0 h1 b q k M hM, Cert.Attn.re_coe h2, ← EReal.coe_mul]
  rw [val_main_v37_apply, Finset.sum_congr rfl (fun k _ => hterm k), ← Cert.OnlineSoftmax.coe_sum]
  refine congrArg _ ?_
  have key1 := Cert.OnlineSoftmax.sum_div_mul (fun k => Cert.Attn.logit x0 x1 x3 x4 b.val q.val k)
    (fun k => Cert.Attn.re x2 b.val k d.val) 2048 M
  have key2 := Cert.OnlineSoftmax.softmax_shift (fun k => Cert.Attn.logit x0 x1 x3 x4 b.val q.val k)
    (fun k => Cert.Attn.re x2 b.val k d.val) 2048 (by norm_num) M 0
  rw [Finset.sum_range] at key1
  unfold Cert.Attn.attn
  exact key1.trans key2

/-- The reference's last stage, as a function of the five argument arrays with real Q, K, V, is the attention of
    Spec.lean at every index. -/
theorem result_eq (x0 x1 x2 : (⟨S16x2048x1024, .f32⟩ : BufTy).Contents (Elt Ideal)) (x3 x4 : (⟨S16, .i32⟩ : BufTy).Contents (Elt Ideal))
    (h0 : Cert.Attn.IsReal x0) (h1 : Cert.Attn.IsReal x1) (h2 : Cert.Attn.IsReal x2) :
    val_main_v37 (F := Ideal) x0 x1 x2 x3 x4 = Cert.Attn.result x0 x1 x2 x3 x4 := by
  funext i
  exact (congrArg (val_main_v37 (F := Ideal) x0 x1 x2 x3 x4) (eq_ix3 i)).trans
    (result_at x0 x1 x2 x3 x4 h0 h1 h2 (i 0) (i 1) (i 2))

end Cert.ReferenceIdeal.RefValue

end
-- ==== Proof.lean ====
/-
  The certificate of a length-masked attention kernel against its plain reference.

  The kernel walks, for each batch and each block of 1024 query rows, over eight blocks of 256 keys; it keeps per row a
  running maximum, a running denominator and a running numerator (an "online" softmax), rescaling the old sums by
  e^(old maximum - new maximum) at each block, skips the score product of a block that starts at or past the key
  length (every logit there is the fill value), and divides numerator by denominator after the last block. The
  reference forms all logits at once, masks them by the product of the two validity masks, applies a softmax over
  the keys and contracts with V. Over the extended reals, with real Q, K, V (the precondition), both results are
    Σ_k e^(logit k - μ) · V k d  /  Σ_k e^(logit k - μ)
  for some real μ (the kernel's running maximum, the reference's row maximum), and the quotient does not depend on μ.
  The kernel's split of each entry into a leading part and a remainder contributes products with `x - x = 0`.

  The frames of the two kernel programs are the generated ones; their side conditions hold for every input (no index
  map reads a length vector, and of the two guards of the body exactly one holds). The reference's frame is its
  generated run. The ideal pass replaced two round trips through bf16 by the identity: the two `preserves` conjuncts.
-/
import proofs.«412665_j43782896615765_3_alg».proof.Defs
import proofs.«412665_j43782896615765_3_alg».proof.Proof.Gen.Kernel
import proofs.«412665_j43782896615765_3_alg».proof.Proof.Gen.Kernel.Skeleton
import proofs.«412665_j43782896615765_3_alg».proof.Proof.Gen.Kernel.Launch
import proofs.«412665_j43782896615765_3_alg».proof.Proof.Gen.Kernel.Points
import proofs.«412665_j43782896615765_3_alg».proof.Proof.Gen.Kernel.Frame
import proofs.«412665_j43782896615765_3_alg».proof.Proof.Gen.KernelIdeal
import proofs.«412665_j43782896615765_3_alg».proof.Proof.Gen.KernelIdeal.Skeleton
import proofs.«412665_j43782896615765_3_alg».proof.Proof.Gen.KernelIdeal.Launch
import proofs.«412665_j43782896615765_3_alg».proof.Proof.Gen.KernelIdeal.Points
import proofs.«412665_j43782896615765_3_alg».proof.Proof.Gen.KernelIdeal.Frame
import proofs.«412665_j43782896615765_3_alg».proof.Proof.Gen.ReferenceIdeal
import proofs.«412665_j43782896615765_3_alg».proof.Proof.Gen.ReferenceIdeal.Run
import proofs.«412665_j43782896615765_3_alg».proof.Proof.Gen.ReferenceIdeal.Read
import proofs.«412665_j43782896615765_3_alg».proof.Proof.Gen.Pre_finite_inputs
import proofs.«412665_j43782896615765_3_alg».proof.Proof.FramesKernel
import proofs.«412665_j43782896615765_3_alg».proof.Proof.FramesKernelIdeal
import proofs.«412665_j43782896615765_3_alg».proof.Proof.Finite
import proofs.«412665_j43782896615765_3_alg».proof.Proof.KernelValue
import proofs.«412665_j43782896615765_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame, its side conditions proved. -/
theorem frame_p : Cert.frame_Kernel := fun m ρ _ =>
  Cert.Kernel.Gen.frame m ρ (Cert.Kernel.Frames.ok m) (Cert.Kernel.Frames.hyps m)

/-- The same for the idealized kernel. -/
theorem frame_pi : Cert.frame_KernelIdeal := fun m ρ _ =>
  Cert.KernelIdeal.Gen.frame m ρ (Cert.KernelIdeal.Frames.ok m) (Cert.KernelIdeal.Frames.hyps m)

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the ideal pass: a round trip through bf16 is the identity on the extended reals. -/
theorem preserves : Cert.preserves_Kernel_KernelIdeal :=
  ⟨IdealRules.truncf_extf.statement _ .f32 .bf16, IdealRules.truncf_extf.statement _ .f32 .bf16⟩

/-- Both idealized programs end with the attention of their (agreeing, real) arguments. -/
theorem algebraic : Cert.algebraic_KernelIdeal_ReferenceIdeal := by
  intro m ρ m' ρ' hpre hagree
  have hreal := fun c => Cert.Finite.isReal_of_pre _ _ _ _ _ (hpre c)
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ (Cert.KernelIdeal.Frames.ok m) (Cert.KernelIdeal.Frames.hyps m)
      (fun c => (hreal c).1) (fun c => (hreal c).2.1) (fun c => (hreal c).2.2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, (hagree c).1, (hagree c).2.1, (hagree c).2.2.1, (hagree c).2.2.2.1,
    (hagree c).2.2.2.2]
  exact Cert.ReferenceIdeal.RefValue.result_eq _ _ _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
